-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400x128 : Shape := ⟨2, ![400, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400x128 : S_.BroadcastsInDim S400x128 (![] : Fin 0 → Fin S400x128.rank)
  reducesTo_S400x128_S_d0_1 : S400x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg3 : IVec S800000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg3 main_v39
  let main_c_15 : IVec S_ 32 := constantI S_ 32 401#32
  let main_v41 : IVec S800000 32 := broadcastInDim S800000 ![] bcast_S_S800000 main_c_15
  let main_v42 : IVec S800000 1 := cmpi .slt main_arg3 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg3 : IVec S800000 32) (main_arg6 : FVec F S128x128 .f32) (main_arg7 : FVec F S128x128 .f32) (main_arg8 : FVec F S1x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg3 main_arg9 main_v33

def fn {F : FTy → Type} [FloatOps F] (main_arg0 : FVec F S100000x128 .f32) (main_arg1 : FVec F S400x128 .f32) (main_arg2 : IVec S2x800000 32) (main_arg3 : IVec S800000 32) (main_arg4 : FVec F S128x128 .f32) (main_arg5 : FVec F S128x128 .f32) (main_arg6 : FVec F S128x128 .f32) (main_arg7 : FVec F S128x128 .f32) (main_arg8 : FVec F S1x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400x128 .f32 := Host.absf main_arg1
  let main_cst_0 : FVec F S_ .f32 := constant S_ .f32 0x7F800000#32
  let main_v5 : FVec F S400x128 .f32 := broadcastInDim S400x128 ![] bcast_S_S400x128 main_cst_0
  let main_v6 : IVec S400x128 1 := cmpf .olt main_v4 main_v5
  let main_c_1 : IVec S_ 1 := constantI S_ 1 1#1
  let main_v7 : IVec S_ 1 := (fun x v => Host.reduce IntOp.andi x v reducesTo_S400x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_arg9 main_v13 main_v16
-- ==== Kernel.lean ====
abbrev S100000x128 : Shape := ⟨2, ![100000, 128]⟩
abbrev S400x128 : Shape := ⟨2, ![400, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S1x800000 : Shape := ⟨2, ![1, 800000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S800000x1 : Shape := ⟨2, ![800000, 1]⟩
abbrev S800000x128 : Shape := ⟨2, ![800000, 128]⟩
abbrev S1x128x128 : Shape := ⟨3, ![1, 128, 128]⟩
abbrev S2x128x128 : Shape := ⟨3, ![2, 128, 128]⟩
abbrev S401x128 : Shape := ⟨2, ![401, 128]⟩
abbrev S5000x128 : Shape := ⟨2, ![5000, 128]⟩
abbrev S5000x1 : Shape := ⟨2, ![5000, 1]⟩
abbrev S5000x401 : Shape := ⟨2, ![5000, 401]⟩

abbrev nBuf : Space → Nat
  | .hbm => 143
  | .vmem => 20
  | .smem => 0
  | _ => 0

abbrev hbmTy0_0 (i : Nat) : BufTy := match i % 128 with
  | 0 => ⟨S100000x128, .f32⟩
  | 1 => ⟨S400x128, .f32⟩
  | 2 => ⟨S2x800000, .i32⟩
  | 3 => ⟨S800000, .i32⟩
  | 4 => ⟨S128x128, .f32⟩
  | 5 => ⟨S128x128, .f32⟩
  | 6 => ⟨S128x128, .f32⟩
  | 7 => ⟨S128x128, .f32⟩
  | 8 => ⟨S1x128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S400000, .i32⟩
  | 15 => ⟨S400000, .i32⟩
  | 16 => ⟨S400000, .i32⟩
  | 17 => ⟨S400000, .i32⟩
  | 18 => ⟨S_, .f32⟩
  | 19 => ⟨S100000, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S_, .f32⟩
  | 29 => ⟨S400000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000, .f32⟩
  | 63 => ⟨S400000, .f32⟩
  | 64 => ⟨S_, .f32⟩
  | 65 => ⟨S100000, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S_, .f32⟩
  | 75 => ⟨S400000, .f32⟩
  | 76 => ⟨S100000, .f32⟩
  | 77 => ⟨S_, .f32⟩
  | 78 => ⟨S100000, .f32⟩
  | 79 => ⟨S100000, .i1⟩
  | 80 => ⟨S_, .f32⟩
  | 81 => ⟨S100000, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000, .f32⟩
  | 109 => ⟨S400000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .bf16⟩
  | 121 => ⟨S1x128x128, .f32⟩
  | 122 => ⟨S1x128x128, .f32⟩
  | 123 => ⟨S2x128x128, .f32⟩
  | 124 => ⟨S401x128, .f32⟩
  | 125 => ⟨S800000x1, .i32⟩
  | 126 => ⟨S800000x1, .f32⟩
  | 127 => ⟨S800000x128, .bf16⟩
  | _ => ⟨S100000x128, .f32⟩

abbrev hbmTy0_1 (i : Nat) : BufTy := match i % 128 with
  | 0 => ⟨S_, .f32⟩
  | 1 => ⟨S100000x128, .f32⟩
  | 2 => ⟨S800000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S100000x128, .f32⟩
  | 12 => ⟨S1x128, .f32⟩
  | 13 => ⟨S100000x128, .f32⟩
  | 14 => ⟨S400x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x1, .i32⟩
  | .local _ .vmem, ⟨3, _⟩ => ⟨S5000x1, .i32⟩
  | .local _ .vmem, ⟨4, _⟩ => ⟨S5000x1, .f32⟩
  | .local _ .vmem, ⟨5, _⟩ => ⟨S5000x1, .f32⟩
  | .local _ .vmem, ⟨6, _⟩ => ⟨S401x128, .f32⟩
  | .local _ .vmem, ⟨7, _⟩ => ⟨S1x128x128, .f32⟩
  | .local _ .vmem, ⟨8, _⟩ => ⟨S1x128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩
abbrev main_call1_v0 : Ref sig .tc := ⟨.hbm, 88, rfl⟩
abbrev main_call1_v1 : Ref sig .tc := ⟨.hbm, 89, rfl⟩
abbrev main_v56 : Ref sig .tc := ⟨.hbm, 90, rfl⟩
abbrev main_c_18 : Ref sig .tc := ⟨.hbm, 91, rfl⟩
abbrev main_v57 : Ref sig .tc := ⟨.hbm, 92, rfl⟩
abbrev main_v58 : Ref sig .tc := ⟨.hbm, 93, rfl⟩
abbrev main_c_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_20 : Ref sig .tc := ⟨.hbm, 100, rfl⟩
abbrev main_v64 : Ref sig .tc := ⟨.hbm, 101, rfl⟩
abbrev main_v65 : Ref sig .tc := ⟨.hbm, 102, rfl⟩
abbrev main_c_21 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_22 : Ref sig .tc := ⟨.hbm, 111, rfl⟩
abbrev main_v73 : Ref sig .tc := ⟨.hbm, 112, rfl⟩
abbrev main_v74 : Ref sig .tc := ⟨.hbm, 113, rfl⟩
abbrev main_c_23 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_24 : Ref sig .tc := ⟨.hbm, 128, rfl⟩
abbrev main_v88 : Ref sig .tc := ⟨.hbm, 129, rfl⟩
abbrev main_v89 : Ref sig .tc := ⟨.hbm, 130, rfl⟩
abbrev main_c_25 : Ref sig .tc := ⟨.hbm, 131, rfl⟩
abbrev main_v90 : Ref sig .tc := ⟨.hbm, 132, rfl⟩
abbrev main_v91 : Ref sig .tc := ⟨.hbm, 133, rfl⟩
abbrev main_c_26 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S401x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000_S400000_0 : S800000.Slices ![0] S400000
  slices_S800000_S400000_400000 : S800000.Slices ![400000] S400000
  bcast_S_S100000 : S_.BroadcastsInDim S100000 (![] : Fin 0 → Fin S100000.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000_S400000_S800000_d0 : Shape.Concatenates [S400000, S400000] S800000 0
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  concatenates_S400x128_S1x128_S401x128_d0 : Shape.Concatenates [S400x128, S1x128] S401x128 0
  shapeCasts_S800000_S800000x1 : S800000.ShapeCasts S800000x1
  iota_S5000x401_d1_w32 : S5000x401.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x401 : S5000x1.Broadcasts S5000x401
  inb_S401x128_S401x128_0_0 : ∀ a, (![0, 0] : Fin 2 → Nat) a + S401x128.size a ≤ S401x128.size a
  h_S401x128 : 0 < S401x128.numel
  shapeCasts_S401x128_S401x128 : S401x128.ShapeCasts S401x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x128_S800000x1_S800000x128_1_0_n_n_0_1_1128_wf : GatherDims.WF S100000x128 S800000x1 S800000x128 [1] [0] [] [0] [] 1 ![1, 128]
  dot_S5000x401_S401x128_S5000x128_1_0_0_1_n_n_wf : DotDims.WF S5000x401 S401x128 S5000x128 [1] [0] [0] [1] [] []
  dot_S5000x128_S128x128_S5000x128_1_0_0_1_n_n_wf : DotDims.WF S5000x128 S128x128 S5000x128 [1] [0] [0] [1] [] []
  scatter_S100000x128_S800000x1_S800000x128_1_0_0_1_wf : ScatterDims.WF S100000x128 S800000x1 S800000x128 [1] [0] [0] 1
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .bf16 = 32 ∨ (Rect.block (s := S800000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S800000x1.size a
  hwx0_1 : ∀ i : grid0.Coords, EltTy.bits .i32 = 32 ∨ (Rect.block (s := S800000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S800000x1.size a
  hwx0_2 : ∀ i : grid0.Coords, EltTy.bits .f32 = 32 ∨ (Rect.block (s := S800000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S401x128.size a ≤ S401x128.size a
  hwx0_3 : ∀ i : grid0.Coords, EltTy.bits .f32 = 32 ∨ (Rect.block (s := S401x128) S401x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S800000x128.size a
  hwx0_5 : ∀ i : grid0.Coords, EltTy.bits .bf16 = 32 ∨ (Rect.block (s := S800000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S5000x401_S401x128_S5000x128_1_0_0_1_n_n : DotDims S5000x401 S401x128 S5000x128 where
  lhsContracting := [1]
  rhsContracting := [0]
  lhsNonContracting := [0]
  rhsNonContracting := [1]
  lhsBatch := []
  rhsBatch := []
  wf := dot_S5000x401_S401x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_v80) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84) S401x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v83) S1x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v87) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v96) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v98) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S400x128 : Shape := ⟨2, ![400, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S401x128 : Shape := ⟨2, ![401, 128]⟩
abbrev S1x800000 : Shape := ⟨2, ![1, 800000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S400000x128 : Shape := ⟨2, ![400000, 128]⟩
abbrev S100000x1 : Shape := ⟨2, ![100000, 1]⟩

abbrev nBuf : Space → Nat
  | .hbm => 226
  | .vmem => 0
  | .smem => 0
  | _ => 0

abbrev hbmTy0_0 (i : Nat) : BufTy := match i % 128 with
  | 0 => ⟨S100000x128, .f32⟩
  | 1 => ⟨S400x128, .f32⟩
  | 2 => ⟨S2x800000, .i32⟩
  | 3 => ⟨S800000, .i32⟩
  | 4 => ⟨S128x128, .f32⟩
  | 5 => ⟨S128x128, .f32⟩
  | 6 => ⟨S128x128, .f32⟩
  | 7 => ⟨S128x128, .f32⟩
  | 8 => ⟨S1x128, .f32⟩
  | 9 => ⟨S128, .f32⟩
  | 10 => ⟨S401x128, .f32⟩
  | 11 => ⟨S1x800000, .i32⟩
  | 12 => ⟨S800000, .i32⟩
  | 13 => ⟨S1x800000, .i32⟩
  | 14 => ⟨S800000, .i32⟩
  | 15 => ⟨S400000, .i32⟩
  | 16 => ⟨S400000, .i32⟩
  | 17 => ⟨S400000, .i32⟩
  | 18 => ⟨S_, .f32⟩
  | 19 => ⟨S100000, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S_, .f32⟩
  | 29 => ⟨S400000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000, .f32⟩
  | 63 => ⟨S400000, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S400000x128, .f32⟩
  | 83 => ⟨S400000x128, .f32⟩
  | 84 => ⟨S400000x1, .f32⟩
  | 85 => ⟨S400000x128, .f32⟩
  | 86 => ⟨S400000x128, .f32⟩
  | 87 => ⟨S_, .f32⟩
  | 88 => ⟨S100000x128, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S100000x128, .f32⟩
  | 98 => ⟨S400000, .i32⟩
  | 99 => ⟨S400000, .i32⟩
  | 100 => ⟨S400000, .i32⟩
  | 101 => ⟨S_, .f32⟩
  | 102 => ⟨S100000, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S_, .f32⟩
  | 112 => ⟨S400000, .f32⟩
  | 113 => ⟨S100000, .f32⟩
  | 114 => ⟨S_, .f32⟩
  | 115 => ⟨S100000, .f32⟩
  | 116 => ⟨S100000, .i1⟩
  | 117 => ⟨S_, .f32⟩
  | 118 => ⟨S100000, .f32⟩
  | 119 => ⟨S100000, .f32⟩
  | 120 => ⟨S100000, .f32⟩
  | 121 => ⟨S_, .f32⟩
  | 122 => ⟨S100000, .f32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000, .f32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000, .f32⟩
  | 18 => ⟨S400000, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S400000x128, .f32⟩
  | 38 => ⟨S400000x128, .f32⟩
  | 39 => ⟨S400000x1, .f32⟩
  | 40 => ⟨S400000x128, .f32⟩
  | 41 => ⟨S400000x128, .f32⟩
  | 42 => ⟨S_, .f32⟩
  | 43 => ⟨S100000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S100000x128, .f32⟩
  | 53 => ⟨S100000, .i32⟩
  | 54 => ⟨S_, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x128, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S100000x128, .f32⟩
  | 96 => ⟨S400x128, .f32⟩
  | 97 => ⟨S400x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_20 : Ref sig .tc := ⟨.hbm, 111, rfl⟩
abbrev main_v77 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_cst_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_23 : Ref sig .tc := ⟨.hbm, 121, rfl⟩
abbrev main_v84 : Ref sig .tc := ⟨.hbm, 122, rfl⟩
abbrev main_v85 : Ref sig .tc := ⟨.hbm, 123, rfl⟩
abbrev main_cst_24 : Ref sig .tc := ⟨.hbm, 124, rfl⟩
abbrev main_call1_v0 : Ref sig .tc := ⟨.hbm, 125, rfl⟩
abbrev main_call1_v1 : Ref sig .tc := ⟨.hbm, 126, rfl⟩
abbrev main_v86 : Ref sig .tc := ⟨.hbm, 127, rfl⟩
abbrev main_c_25 : Ref sig .tc := ⟨.hbm, 128, rfl⟩
abbrev main_v87 : Ref sig .tc := ⟨.hbm, 129, rfl⟩
abbrev main_v88 : Ref sig .tc := ⟨.hbm, 130, rfl⟩
abbrev main_c_26 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_27 : Ref sig .tc := ⟨.hbm, 137, rfl⟩
abbrev main_v94 : Ref sig .tc := ⟨.hbm, 138, rfl⟩
abbrev main_v95 : Ref sig .tc := ⟨.hbm, 139, rfl⟩
abbrev main_c_28 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_29 : Ref sig .tc := ⟨.hbm, 147, rfl⟩
abbrev main_v102 : Ref sig .tc := ⟨.hbm, 148, rfl⟩
abbrev main_v103 : Ref sig .tc := ⟨.hbm, 149, rfl⟩
abbrev main_c_30 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_31 : Ref sig .tc := ⟨.hbm, 156, rfl⟩
abbrev main_v109 : Ref sig .tc := ⟨.hbm, 157, rfl⟩
abbrev main_v110 : Ref sig .tc := ⟨.hbm, 158, rfl⟩
abbrev main_c_32 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_33 : Ref sig .tc := ⟨.hbm, 170, rfl⟩
abbrev main_v121 : Ref sig .tc := ⟨.hbm, 171, rfl⟩
abbrev main_c_34 : Ref sig .tc := ⟨.hbm, 172, rfl⟩
abbrev main_v122 : Ref sig .tc := ⟨.hbm, 173, rfl⟩
abbrev main_v123 : Ref sig .tc := ⟨.hbm, 174, rfl⟩
abbrev main_c_35 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_36 : Ref sig .tc := ⟨.hbm, 182, rfl⟩
abbrev main_v130 : Ref sig .tc := ⟨.hbm, 183, rfl⟩
abbrev main_c_37 : Ref sig .tc := ⟨.hbm, 184, rfl⟩
abbrev main_v131 : Ref sig .tc := ⟨.hbm, 185, rfl⟩
abbrev main_v132 : Ref sig .tc := ⟨.hbm, 186, rfl⟩
abbrev main_c_38 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_c_39 : Ref sig .tc := ⟨.hbm, 193, rfl⟩
abbrev main_v138 : Ref sig .tc := ⟨.hbm, 194, rfl⟩
abbrev main_v139 : Ref sig .tc := ⟨.hbm, 195, rfl⟩
abbrev main_c_40 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_41 : Ref sig .tc := ⟨.hbm, 204, rfl⟩
abbrev main_v147 : Ref sig .tc := ⟨.hbm, 205, rfl⟩
abbrev main_c_42 : Ref sig .tc := ⟨.hbm, 206, rfl⟩
abbrev main_v148 : Ref sig .tc := ⟨.hbm, 207, rfl⟩
abbrev main_v149 : Ref sig .tc := ⟨.hbm, 208, rfl⟩
abbrev main_c_43 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_44 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩

abbrev nD : Nat := 1
abbrev τ : Topo := Topo.v7x

variable {F : FTy → Type} [FloatOps F]

class Facts₀ : Prop where
  concatenates_S400x128_S1x128_S401x128_d0 : Shape.Concatenates [S400x128, S1x128] S401x128 0
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000_S400000_0 : S800000.Slices ![0] S400000
  bcast_S_S100000 : S_.BroadcastsInDim S100000 (![] : Fin 0 → Fin S100000.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  slices_S800000_S400000_400000 : S800000.Slices ![400000] S400000
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S401x128_S400x128_0_0 : S401x128.Slices ![0, 0] S400x128
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x128_S400000x1_S400000x128_1_0_n_n_0_1_1128_wf : GatherDims.WF S100000x128 S400000x1 S400000x128 [1] [0] [] [0] [] 1 ![1, 128]
  gather_S401x128_S400000x1_S400000x128_1_0_n_n_0_1_1128_wf : GatherDims.WF S401x128 S400000x1 S400000x128 [1] [0] [] [0] [] 1 ![1, 128]
  dot_S400000x128_S128x128_S400000x128_1_0_0_1_n_n_wf : DotDims.WF S400000x128 S128x128 S400000x128 [1] [0] [0] [1] [] []
  scatter_S100000x128_S400000x1_S400000x128_1_0_0_1_wf : ScatterDims.WF S100000x128 S400000x1 S400000x128 [1] [0] [0] 1
  gather_S100000x128_S100000x1_S100000x128_1_0_n_n_0_1_1128_wf : GatherDims.WF S100000x128 S100000x1 S100000x128 [1] [0] [] [0] [] 1 ![1, 128]
  gather_S401x128_S100000x1_S100000x128_1_0_n_n_0_1_1128_wf : GatherDims.WF S401x128 S100000x1 S100000x128 [1] [0] [] [0] [] 1 ![1, 128]
  dot_S100000x128_S128x128_S100000x128_1_0_0_1_n_n_wf : DotDims.WF S100000x128 S128x128 S100000x128 [1] [0] [0] [1] [] []
  scatter_S100000x128_S100000x1_S100000x128_1_0_0_1_wf : ScatterDims.WF S100000x128 S100000x1 S100000x128 [1] [0] [0] 1
  dot_S400x128_S128x128_S400x128_1_0_0_1_n_n_wf : DotDims.WF S400x128 S128x128 S400x128 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S401x128_S400000x1_S400000x128_1_0_n_n_0_1_1128 : GatherDims S401x128 S400000x1 S400000x128 where
  offsetDims := [1]
  collapsedSliceDims := [0]
  operandBatchingDims := []
  startIndicesBatchingDims := []
  startIndexMap := [0]
  indexVectorDim := 1
  sliceSizes := ![1, 128]
  wf := gather_S401x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S401x128_S100000x1_S100000x128_1_0_n_n_0_1_1128 : GatherDims S401x128 S100000x1 S100000x128 where
  offsetDims := [1]
  collapsedSliceDims := [0]
  operandBatchingDims := []
  startIndicesBatchingDims := []
  startIndexMap := [0]
  indexVectorDim := 1
  sliceSizes := ![1, 128]
  wf := gather_S401x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

class Facts : Prop extends Facts₀ where

variable [Facts]
-- ==== Proof.LibRows.lean ====
/-
  General facts about gathering rows of a table and scatter-adding rows into a table, at the exact extended reals.

  A table `x : [N, D]`, an index column `idx : [E, 1]` of integer words, rows `upd : [E, D]`.
  * `x[idx]` (a gather of whole rows): row `e` of the result is row `clamp (idx e)` of the table, the index word read
    as a signed integer and clamped into `[0, N - 1]`.
  * `zeros.at[idx].add(upd)` (a scatter-add of whole rows): entry `(i, k)` of the result is the entry of the operand
    plus the sum of `upd (e, k)` over the rows `e` whose index word, read as a signed integer, is exactly `i`
    (an index outside `[0, N)` lands nowhere).
  * a sum over `Fin n` splits into the sum over the first `a` indices and the sum over the remaining `b`.
-/
import Idealize.ShloMosaic.PureOps.Ideal
import Idealize.ShloMosaic.PureOps.Ideal.Laws
import Idealize.ShloMosaic.PureOps.Contract
import Idealize.ShloMosaic.Lib.ValueIdx

noncomputable section

namespace Cert.LibRows

open Idealize.ShloMosaic Idealize.ShloMosaic.ValueIdx

/-- The row a clamped gather reads: the index word as a signed integer, negative values at `0`, large ones at `N - 1`. -/
def clampRow (N : Nat) (hN : 0 < N) {w : Nat} (t : BitVec w) : Fin N := ⟨min t.toInt.toNat (N - 1), by omega⟩

/-- A gather of whole rows read at `(e, k)`: the table at the clamped row, same column. -/
theorem gather_rows_apply {α : Type} {N E D w : Nat} (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D]) (hN : 0 < N)
    (x : (⟨2, ![N, D]⟩ : Shape).Idx → α) (idx : IVec ⟨2, ![E, 1]⟩ w) (e : Fin E) (k : Fin D) :
    Host.gather g x idx (ix2 e k) = x (ix2 (clampRow N hN (idx (ix2 e 0))) k) := by
  obtain ⟨od, cs, ob, sb, sim, ivd, ss, wf⟩ := g
  simp only at h1 h2 h3 h4 h5 h6 h7
  subst h1 h2 h3 h4 h5 h6 h7
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · show min (idx _).toInt.toNat _ = min (idx (ix2 e 0)).toInt.toNat (N - 1)
      refine congrArg₂ min (congrArg (fun z => (idx z).toInt.toNat) ?_) rfl
      funext b
      match b with
      | ⟨0, _⟩ => rfl
      | ⟨1, _⟩ => exact Subsingleton.elim (α := Fin 1) _ _
    · next hn => exact absurd (List.mem_singleton.mpr rfl) hn
  | ⟨1, _⟩ =>
    simp only [Nat.add_zero]
    unfold GatherDims.start GatherDims.offCoord
    split
    · next hp => exact absurd (congrArg Fin.val (List.mem_singleton.mp hp)) Nat.one_ne_zero
    · split
      · rw [Nat.zero_add]; rfl
      · next hn =>
        exact absurd ((GatherDims.mem_sKept _ _).mpr
          ⟨fun hc => absurd (congrArg Fin.val (List.mem_singleton.mp hc)) Nat.one_ne_zero, List.not_mem_nil⟩) hn

/-- A scatter-add of whole rows read at `(i, k)`: the operand there plus the rows whose index word is `i`. -/
theorem scatterAdd_rows_apply {N E D w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ .f32) (idx : IVec ⟨2, ![E, 1]⟩ w) (upd : FVec Ideal ⟨2, ![E, D]⟩ .f32)
    (i : Fin N) (k : Fin D) :
    Host.scatterAdd (F := Ideal) d x idx upd (ix2 i k)
      = x (ix2 i k) + ∑ e : Fin E, if (idx (ix2 e 0)).toInt = (i.val : Int) then upd (ix2 e k) else 0 := by
  obtain ⟨uw, iw, sd, ivd, wf⟩ := d
  simp only at h1 h2 h3 h4
  subst h1 h2 h3 h4
  have hs0 : ∀ (e : Fin E) (k' : Fin D),
      ScatterDims.start ⟨[1], [0], [0], 1, wf⟩ (ix2 e k') idx ⟨0, Nat.zero_lt_two⟩ = (idx (ix2 e 0)).toInt := by
    intro e k'
    unfold ScatterDims.start
    split
    · refine congrArg (fun z => (idx z).toInt) ?_
      funext b
      match b with
      | ⟨0, _⟩ => rfl
      | ⟨1, _⟩ => exact Subsingleton.elim (α := Fin 1) _ _
    · next hn => exact absurd (List.mem_singleton.mpr rfl) hn
  have hs1 : ∀ (e : Fin E) (k' : Fin D),
      ScatterDims.start ⟨[1], [0], [0], 1, wf⟩ (ix2 e k') idx ⟨1, Nat.one_lt_two⟩ = 0 := by
    intro e k'
    unfold ScatterDims.start
    split
    · next hp => exact absurd (congrArg Fin.val (List.mem_singleton.mp hp)) Nat.one_ne_zero
    · rfl
  have hw0 : ∀ (e : Fin E) (k' : Fin D),
      ScatterDims.window (si := ⟨2, ![E, 1]⟩) ⟨[1], [0], [0], 1, wf⟩ (ix2 e k') ⟨0, Nat.zero_lt_two⟩ = 0 := by
    intro e k'
    unfold ScatterDims.window
    split
    · next hp => exact absurd (List.mem_singleton.mpr rfl) (of_decide_eq_true (List.mem_filter.mp hp).2)
    · rfl
  have hw1 : ∀ (e : Fin E) (k' : Fin D),
      ScatterDims.window (si := ⟨2, ![E, 1]⟩) ⟨[1], [0], [0], 1, wf⟩ (ix2 e k') ⟨1, Nat.one_lt_two⟩ = k'.val := by
    intro e k'
    unfold ScatterDims.window
    split
    · rfl
    · next hn =>
      exact absurd (List.mem_filter.mpr ⟨List.mem_finRange _, decide_eq_true
        (fun hc => absurd (congrArg Fin.val (List.mem_singleton.mp hc)) Nat.one_ne_zero)⟩) hn
  have key : ∀ (e : Fin E) (k' : Fin D),
      ScatterDims.resultIdx? ⟨[1], [0], [0], 1, wf⟩ (ix2 e k') idx = some (ix2 i k)
        ↔ (k' = k ∧ (idx (ix2 e 0)).toInt = (i.val : Int)) := by
    intro e k'
    unfold ScatterDims.resultIdx?
    constructor
    · intro h
      split at h
      · next hall =>
        have hf := Option.some.inj h
        have e0 := congrArg (fun f => (f ⟨0, Nat.zero_lt_two⟩).val) hf
        have e1 := congrArg (fun f => (f ⟨1, Nat.one_lt_two⟩).val) hf
        have a0 := hall ⟨0, Nat.zero_lt_two⟩
        simp only [hs0, hs1, hw0, hw1] at e0 e1 a0
        have e0' : ((idx (ix2 e 0)).toInt + ((0 : Nat) : Int)).toNat = i.val := e0
        have e1' : ((0 : Int) + ((k'.val : Nat) : Int)).toNat = k.val := e1
        obtain ⟨a0l, _⟩ := a0
        exact ⟨Fin.ext (by omega), by omega⟩
      · exact absurd h (by simp)
    · rintro ⟨rfl, hi⟩
      split
      · refine congrArg some ?_
        funext a
        refine Fin.ext ?_
        match a with
        | ⟨0, _⟩ =>
          simp only [hs0, hw0, hi]
          show _ = i.val
          omega
        | ⟨1, _⟩ =>
          simp only [hs1, hw1]
          show _ = k'.val
          omega
      · next hn =>
        refine absurd (fun a => ?_) hn
        match a with
        | ⟨0, _⟩ =>
          rw [hs0, hw0, hi]
          refine ⟨by omega, ?_⟩
          show (i.val : Int) + ((0 : Nat) : Int) < ((N : Nat) : Int)
          have := i.isLt
          omega
        | ⟨1, _⟩ =>
          rw [hs1, hw1]
          refine ⟨by omega, ?_⟩
          show (0 : Int) + ((k'.val : Nat) : Int) < ((D : Nat) : Int)
          have := k'.isLt
          omega
  show x (ix2 i k) + ∑ j ∈ Finset.univ.filter
      (fun j => ScatterDims.resultIdx? ⟨[1], [0], [0], 1, wf⟩ j idx = some (ix2 i k)), upd j = _
  congr 1
  rw [Finset.sum_filter, sum_idx2]
  refine Finset.sum_congr rfl fun e _ => ?_
  simp only [key]
  by_cases hi : (idx (ix2 e 0)).toInt = (i.val : Int)
  · simp only [hi, and_true, if_true]
    rw [Finset.sum_ite_eq']
    simp
  · simp only [hi, and_false, if_false]
    exact Finset.sum_const_zero

/-- A sum over `Fin n` is the sum over its first `a` indices plus the sum over the last `b`. -/
theorem sum_split {M : Type*} [AddCommMonoid M] {n : Nat} (a b : Nat) (h : a + b = n) (f : Fin n → M) :
    ∑ e : Fin n, f e = ∑ e : Fin a, f ⟨e.val, by omega⟩ + ∑ e : Fin b, f ⟨a + e.val, by omega⟩ := by
  subst h
  rw [Fin.sum_univ_add]
  rfl

end Cert.LibRows

end
-- ==== Proof.Spec.lean ====
/-
  What the two kernels compute, index by index, on whole arrays of extended reals.

  Edge messages.  For edge `e` (of 800000) and output feature `d`:
    msg e d = (∑ k, (hj e k - ∑ r, hot r (et e) * rf r k) * ws (half e) k d) * nm e
  where `hot r t` is the one-hot weight (the word 1.0 where the relation row number `r` equals the edge's type word `t`,
  the word 0.0 elsewhere), `half e` is 0 for the first 400000 edges and 1 for the rest (which of the two stacked weight
  matrices the edge's tile multiplies by), and `nm e` is the edge's normalisation.

  Combination.  For entity `i` and feature `d`:
    out i d = tanh ((acc i d + ∑ k, (x i k - lr 0 k) * wl k d) * c + b 0 d),   c the word 0x3EAAAAAB.
-/
import Idealize.ShloMosaic.PureOps.Ideal
import Idealize.ShloMosaic.Lib.ValueIdx
import proofs.«404528_j34351148433957_3_alg».proof.Proof.LibRows

noncomputable section

namespace Cert.Spec

open Idealize.ShloMosaic Idealize.ShloMosaic.ValueIdx Cert.LibRows

/-- The one-hot weight of relation row `r` for an edge whose type word is `t`. -/
def hot (r : Fin 401) (t : BitVec 32) : EReal :=
  if BitVec.ofNat 32 r.val = t then Ideal.ofBits .f32 0x3F800000#32 else Ideal.ofBits .f32 0x00000000#32

/-- Which stacked weight matrix edge `e` uses: 0 for the first 400000 edges, 1 for the others. -/
def half (e : Fin 800000) : Fin 2 := ⟨e.val / 400000, by have := e.isLt; omega⟩

/-- The message of edge `e` at feature `d`. -/
def edgeAt (hj : (⟨2, ![800000, 128]⟩ : Shape).Idx → EReal) (et : (⟨2, ![800000, 1]⟩ : Shape).Idx → BitVec 32)
    (nm : (⟨2, ![800000, 1]⟩ : Shape).Idx → EReal) (rf : (⟨2, ![401, 128]⟩ : Shape).Idx → EReal)
    (ws : (⟨3, ![2, 128, 128]⟩ : Shape).Idx → EReal) (e : Fin 800000) (d : Fin 128) : EReal :=
  (∑ k : Fin 128, (hj (ix2 e k) - ∑ r : Fin 401, hot r (et (ix2 e 0)) * rf (ix2 r k)) * ws (ix3 (half e) k d))
    * nm (ix2 e 0)

/-- All edge messages as one array. -/
def edgeMsg (hj : (⟨2, ![800000, 128]⟩ : Shape).Idx → EReal) (et : (⟨2, ![800000, 1]⟩ : Shape).Idx → BitVec 32)
    (nm : (⟨2, ![800000, 1]⟩ : Shape).Idx → EReal) (rf : (⟨2, ![401, 128]⟩ : Shape).Idx → EReal)
    (ws : (⟨3, ![2, 128, 128]⟩ : Shape).Idx → EReal) : (⟨2, ![800000, 128]⟩ : Shape).Idx → EReal :=
  fun j => edgeAt hj et nm rf ws ⟨(j 0).val, idx2_lt0 j⟩ ⟨(j 1).val, idx2_lt1 j⟩

/-- The combined output for entity `i` at feature `d`. -/
def combAt (x : (⟨2, ![100000, 128]⟩ : Shape).Idx → EReal) (lr : (⟨2, ![1, 128]⟩ : Shape).Idx → EReal)
    (wl : (⟨2, ![128, 128]⟩ : Shape).Idx → EReal) (acc : (⟨2, ![100000, 128]⟩ : Shape).Idx → EReal)
    (b : (⟨2, ![1, 128]⟩ : Shape).Idx → EReal) (i : Fin 100000) (d : Fin 128) : EReal :=
  Ideal.tanh ((acc (ix2 i d) + ∑ k : Fin 128, (x (ix2 i k) - lr (ix2 0 k)) * wl (ix2 k d))
    * Ideal.ofBits .f32 0x3EAAAAAB#32 + b (ix2 0 d))

/-- The combined output as one array. -/
def combine (x : (⟨2, ![100000, 128]⟩ : Shape).Idx → EReal) (lr : (⟨2, ![1, 128]⟩ : Shape).Idx → EReal)
    (wl : (⟨2, ![128, 128]⟩ : Shape).Idx → EReal) (acc : (⟨2, ![100000, 128]⟩ : Shape).Idx → EReal)
    (b : (⟨2, ![1, 128]⟩ : Shape).Idx → EReal) : (⟨2, ![100000, 128]⟩ : Shape).Idx → EReal :=
  fun j => combAt x lr wl acc b ⟨(j 0).val, idx2_lt0 j⟩ ⟨(j 1).val, idx2_lt1 j⟩

/-! ## Both programs read on the raw argument arrays

  `ei : [2, 800000]` holds the destination entity of edge `e` in row 0 and its source entity in row 1; `et : [800000]`
  its relation type.  An index word `t` into an axis of extent `n` is first wrapped (`t + n` when `t` is negative);
  a gather then clamps it into the axis, a scatter-add drops it when it is outside. -/

/-- Python-style wrapping of a signed index word into an axis of extent `n`. -/
def wrapW (n t : BitVec 32) : BitVec 32 := Scalar.select (IntOp.cmpi .slt t 0#32) (IntOp.addi t n) t

/-- The (wrapped) destination word of edge `e`. -/
def dstW (ei : (⟨2, ![2, 800000]⟩ : Shape).Idx → BitVec 32) (e : Fin 800000) : BitVec 32 :=
  wrapW 100000#32 (ei (ix2 0 e))

/-- The source row of edge `e`: wrapped, then clamped into the entity table. -/
def srcRow (ei : (⟨2, ![2, 800000]⟩ : Shape).Idx → BitVec 32) (e : Fin 800000) : Fin 100000 :=
  clampRow 100000 (by decide) (wrapW 100000#32 (ei (ix2 1 e)))

/-- The relation row of edge `e`: wrapped, then clamped into the 401-row relation table. -/
def relRow (et : (⟨1, ![800000]⟩ : Shape).Idx → BitVec 32) (e : Fin 800000) : Fin 401 :=
  clampRow 401 (by decide) (wrapW 401#32 (et (ix1 e)))

/-- The relation table with the loop relation appended as row 400. -/
def rfull (r : (⟨2, ![400, 128]⟩ : Shape).Idx → EReal) (lr : (⟨2, ![1, 128]⟩ : Shape).Idx → EReal)
    (q : Fin 401) (k : Fin 128) : EReal :=
  if h : q.val < 400 then r (ix2 ⟨q.val, h⟩ k) else lr (ix2 0 k)

/-- The reference's message of edge `e` at feature `d`, with weight matrix `w` and normalisation `nm`:
    `((x[src e] - rfull[rel e]) @ w) d * nm`. -/
def refMsg (x : (⟨2, ![100000, 128]⟩ : Shape).Idx → EReal) (r : (⟨2, ![400, 128]⟩ : Shape).Idx → EReal)
    (lr : (⟨2, ![1, 128]⟩ : Shape).Idx → EReal) (ei : (⟨2, ![2, 800000]⟩ : Shape).Idx → BitVec 32)
    (et : (⟨1, ![800000]⟩ : Shape).Idx → BitVec 32) (w : (⟨2, ![128, 128]⟩ : Shape).Idx → EReal) (nm : EReal)
    (e : Fin 800000) (d : Fin 128) : EReal :=
  (∑ k : Fin 128, (x (ix2 (srcRow ei e) k) - rfull r lr (relRow et e) k) * w (ix2 k d)) * nm

/-- The self-loop message of entity `n` at feature `d` as the reference computes it: the entity's own row, gathered at
    the index word `n`, minus the relation row gathered at the word 400. -/
def refLoop (x : (⟨2, ![100000, 128]⟩ : Shape).Idx → EReal) (r : (⟨2, ![400, 128]⟩ : Shape).Idx → EReal)
    (lr : (⟨2, ![1, 128]⟩ : Shape).Idx → EReal) (wl : (⟨2, ![128, 128]⟩ : Shape).Idx → EReal)
    (n : Fin 100000) (d : Fin 128) : EReal :=
  ∑ k : Fin 128, (x (ix2 (clampRow 100000 (by decide) (wrapW 100000#32 (BitVec.ofNat 32 n.val))) k)
      - rfull r lr (clampRow 401 (by decide) (wrapW 401#32 400#32)) k) * wl (ix2 k d)

/-- THE REFERENCE at entity `i`, feature `d`: three scatter-added accumulators (first-half edges with `win` and
    `nmIn`, second-half edges with `wout` and `nmOut`, self loops with `wl`), summed, scaled, biased, `tanh`. -/
def refOut (x : (⟨2, ![100000, 128]⟩ : Shape).Idx → EReal) (r : (⟨2, ![400, 128]⟩ : Shape).Idx → EReal)
    (ei : (⟨2, ![2, 800000]⟩ : Shape).Idx → BitVec 32) (et : (⟨1, ![800000]⟩ : Shape).Idx → BitVec 32)
    (win wout wl : (⟨2, ![128, 128]⟩ : Shape).Idx → EReal) (lr : (⟨2, ![1, 128]⟩ : Shape).Idx → EReal)
    (bias : (⟨1, ![128]⟩ : Shape).Idx → EReal) (nmIn nmOut : (⟨1, ![400000]⟩ : Shape).Idx → EReal)
    (i : Fin 100000) (d : Fin 128) : EReal :=
  Ideal.tanh ((((0 + ∑ e : Fin 400000, if (dstW ei ⟨e.val, by omega⟩).toInt = (i.val : Int)
          then refMsg x r lr ei et win (nmIn (ix1 e)) ⟨e.val, by omega⟩ d else 0)
      + (0 + ∑ e : Fin 400000, if (dstW ei ⟨400000 + e.val, by omega⟩).toInt = (i.val : Int)
          then refMsg x r lr ei et wout (nmOut (ix1 e)) ⟨400000 + e.val, by omega⟩ d else 0))
      + (0 + ∑ n : Fin 100000, if (wrapW 100000#32 (BitVec.ofNat 32 n.val)).toInt = (i.val : Int)
          then refLoop x r lr wl n d else 0))
    * Ideal.ofBits .f32 0x3EAAAAAB#32 + bias (ix1 d))

/-- The kernel's five arrays at region 0's entry, read on the raw arguments. -/
def kHj (x : (⟨2, ![100000, 128]⟩ : Shape).Idx → EReal) (ei : (⟨2, ![2, 800000]⟩ : Shape).Idx → BitVec 32) :
    (⟨2, ![800000, 128]⟩ : Shape).Idx → EReal :=
  fun j => x (ix2 (srcRow ei ⟨(j 0).val, idx2_lt0 j⟩) ⟨(j 1).val, idx2_lt1 j⟩)
def kEt (et : (⟨1, ![800000]⟩ : Shape).Idx → BitVec 32) : (⟨2, ![800000, 1]⟩ : Shape).Idx → BitVec 32 :=
  fun j => et (ix1 ⟨(j 0).val, idx2_lt0 j⟩)
def kNm (nmIn nmOut : (⟨1, ![400000]⟩ : Shape).Idx → EReal) : (⟨2, ![800000, 1]⟩ : Shape).Idx → EReal :=
  fun j => if h : (j 0).val < 400000 then nmIn (ix1 ⟨(j 0).val, h⟩)
    else nmOut (ix1 ⟨(j 0).val - 400000, by have := idx2_lt0 j; omega⟩)
def kRf (r : (⟨2, ![400, 128]⟩ : Shape).Idx → EReal) (lr : (⟨2, ![1, 128]⟩ : Shape).Idx → EReal) :
    (⟨2, ![401, 128]⟩ : Shape).Idx → EReal :=
  fun j => rfull r lr ⟨(j 0).val, idx2_lt0 j⟩ ⟨(j 1).val, idx2_lt1 j⟩
def kWs (win wout : (⟨2, ![128, 128]⟩ : Shape).Idx → EReal) : (⟨3, ![2, 128, 128]⟩ : Shape).Idx → EReal :=
  fun j => if (j 0).val = 0 then win (ix2 ⟨(j 1).val, (j 1).isLt⟩ ⟨(j 2).val, (j 2).isLt⟩)
    else wout (ix2 ⟨(j 1).val, (j 1).isLt⟩ ⟨(j 2).val, (j 2).isLt⟩)
/-- The kernel's one accumulator: every edge's message scatter-added at its destination. -/
def kAcc (ei : (⟨2, ![2, 800000]⟩ : Shape).Idx → BitVec 32) (msg : (⟨2, ![800000, 128]⟩ : Shape).Idx → EReal) :
    (⟨2, ![100000, 128]⟩ : Shape).Idx → EReal :=
  fun j => 0 + ∑ e : Fin 800000, if (dstW ei e).toInt = ((j 0).val : Int)
    then msg (ix2 e ⟨(j 1).val, idx2_lt1 j⟩) else 0
def kB (bias : (⟨1, ![128]⟩ : Shape).Idx → EReal) : (⟨2, ![1, 128]⟩ : Shape).Idx → EReal :=
  fun j => bias (ix1 ⟨(j 1).val, idx2_lt1 j⟩)

/-- THE KERNEL at entity `i`, feature `d`: the combination of the one accumulator of all edge messages. -/
def kerOut (x : (⟨2, ![100000, 128]⟩ : Shape).Idx → EReal) (r : (⟨2, ![400, 128]⟩ : Shape).Idx → EReal)
    (ei : (⟨2, ![2, 800000]⟩ : Shape).Idx → BitVec 32) (et : (⟨1, ![800000]⟩ : Shape).Idx → BitVec 32)
    (win wout wl : (⟨2, ![128, 128]⟩ : Shape).Idx → EReal) (lr : (⟨2, ![1, 128]⟩ : Shape).Idx → EReal)
    (bias : (⟨1, ![128]⟩ : Shape).Idx → EReal) (nmIn nmOut : (⟨1, ![400000]⟩ : Shape).Idx → EReal)
    (i : Fin 100000) (d : Fin 128) : EReal :=
  combAt x lr wl (kAcc ei (edgeMsg (kHj x ei) (kEt et) (kNm nmIn nmOut) (kRf r lr) (kWs win wout))) (kB bias) i d

end Cert.Spec

end
-- ==== Proof.EdgePayload.lean ====
/-
  The value the first kernel's body stores, read at an index (p, q) of its [5000, 128] block, at the extended reals:

    (∑ k, (hj (p, k) - ∑ r, hot r (et (p, 0)) * rf (r, k)) * w (0, k, q)) * nm (p, 0)

  — the two matrix products each as a sum over its one contracted axis (401 relation rows; 128 input features), the
  comparison of the column counter with the type word as the one-hot weight `Cert.Spec.hot`, the roundings and
  widenings the identity, the unit-axis cast and the column broadcast read at their source index.
-/
import proofs.«404528_j34351148433957_3_alg».proof.Proof.Gen.KernelIdeal.Skeleton
import proofs.«404528_j34351148433957_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgePayload

open Cert.KernelIdeal Cert.KernelIdeal.Gen
open Idealize.ShloMosaic Idealize.ShloMosaic.ValueIdx

/-! ## The two matrix products read at an index -/

theorem lhs_hot_0 (i : S5000x128.Idx) (q : dot_S5000x401_S401x128_S5000x128_1_0_0_1_n_n.contr.Idx) :
    (dot_S5000x401_S401x128_S5000x128_1_0_0_1_n_n.lhsIdx i q 0).val = (i 0).val := by
  unfold DotDims.lhsIdx
  rw [dif_neg (show ¬(0 : Fin S5000x401.rank) ∈ dot_S5000x401_S401x128_S5000x128_1_0_0_1_n_n.lhsBatch by decide), dif_pos (show (0 : Fin S5000x401.rank) ∈ dot_S5000x401_S401x128_S5000x128_1_0_0_1_n_n.lhsNonContracting by decide)]
  rfl
theorem lhs_hot_1 (i : S5000x128.Idx) (q : dot_S5000x401_S401x128_S5000x128_1_0_0_1_n_n.contr.Idx) :
    (dot_S5000x401_S401x128_S5000x128_1_0_0_1_n_n.lhsIdx i q 1).val = (q ⟨0, by decide⟩).val :=
  dot_S5000x401_S401x128_S5000x128_1_0_0_1_n_n.lhsIdx_val_of_single rfl i q
theorem rhs_hot_0 (i : S5000x128.Idx) (q : dot_S5000x401_S401x128_S5000x128_1_0_0_1_n_n.contr.Idx) :
    (dot_S5000x401_S401x128_S5000x128_1_0_0_1_n_n.rhsIdx i q 0).val = (q ⟨0, by decide⟩).val :=
  dot_S5000x401_S401x128_S5000x128_1_0_0_1_n_n.rhsIdx_val_of_single rfl i q
theorem rhs_hot_1 (i : S5000x128.Idx) (q : dot_S5000x401_S401x128_S5000x128_1_0_0_1_n_n.contr.Idx) :
    (dot_S5000x401_S401x128_S5000x128_1_0_0_1_n_n.rhsIdx i q 1).val = (i 1).val := by
  unfold DotDims.rhsIdx
  rw [dif_neg (show ¬(1 : Fin S401x128.rank) ∈ dot_S5000x401_S401x128_S5000x128_1_0_0_1_n_n.rhsBatch by decide), dif_pos (show (1 : Fin S401x128.rank) ∈ dot_S5000x401_S401x128_S5000x128_1_0_0_1_n_n.rhsNonContracting by decide)]
  rfl

/-- The one-hot rows times the relation table, at `(p, q)`: the sum over the 401 relation rows. -/
theorem hotProduct_apply (a : FVec Ideal S5000x401 .bf16) (b : FVec Ideal S401x128 .bf16) (p : Fin 5000) (q : Fin 128) :
    FloatOps.matmul dot_S5000x401_S401x128_S5000x128_1_0_0_1_n_n none a b (constant (F := Ideal) S5000x128 .f32 0x00000000#32) (ix2 p q)
      = ∑ r : Fin 401, a (ix2 p r) * b (ix2 r q) := by
  rw [Ideal.matmul_constant_zero_apply, ← Equiv.sum_comp (ValueIdx.contrEquiv1 dot_S5000x401_S401x128_S5000x128_1_0_0_1_n_n 401 rfl rfl).symm]
  refine Finset.sum_congr rfl fun k _ => ?_
  have hk := ValueIdx.contrEquiv1_symm_val dot_S5000x401_S401x128_S5000x128_1_0_0_1_n_n 401 rfl rfl k
  have el : dot_S5000x401_S401x128_S5000x128_1_0_0_1_n_n.lhsIdx (ix2 p q) ((ValueIdx.contrEquiv1 dot_S5000x401_S401x128_S5000x128_1_0_0_1_n_n 401 rfl rfl).symm k) = ix2 p k := funext fun a => Fin.ext (by
    match a with
    | ⟨0, _⟩ => exact lhs_hot_0 _ _
    | ⟨1, _⟩ => exact (lhs_hot_1 _ _).trans hk)
  have er : dot_S5000x401_S401x128_S5000x128_1_0_0_1_n_n.rhsIdx (ix2 p q) ((ValueIdx.contrEquiv1 dot_S5000x401_S401x128_S5000x128_1_0_0_1_n_n 401 rfl rfl).symm k) = ix2 k q := funext fun a => Fin.ext (by
    match a with
    | ⟨0, _⟩ => exact (rhs_hot_0 _ _).trans hk
    | ⟨1, _⟩ => exact rhs_hot_1 _ _)
  rw [el, er]

theorem lhs_w_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_w_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_w_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_w_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The differences times the weight matrix, at `(p, q)`: the sum over the 128 input features. -/
theorem weightProduct_apply (a : FVec Ideal S5000x128 .bf16) (b : FVec Ideal S128x128 .bf16) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_w_0 _ _
    | ⟨1, _⟩ => exact (lhs_w_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_w_0 _ _).trans hk
    | ⟨1, _⟩ => exact rhs_w_1 _ _)
  rw [el, er]

/-! ## The one-hot rows -/

/-- The comparison of the column counter with the edge's type word, selected between the words 1.0 and 0.0, at
    `(p, r)`: the one-hot weight of relation row `r` for the type word of row `p`. -/
theorem oneHot_apply (et : IVec S5000x1 32) (hi : S5000x401.Iotas .tc 32 [1]) (hs : S5000x1.ShapeCasts S5000x1)
    (hb : S5000x1.Broadcasts S5000x401) (p : Fin 5000) (r : Fin 401) :
    select (cmpi .eq (iota .tc S5000x401 32 [1] hi) (broadcastTo S5000x401 (shapeCast S5000x1 et hs) hb))
        (broadcast S5000x401 (Scalar.ofBits (F := Ideal) .f32 0x3F800000#32))
        (broadcast S5000x401 (Scalar.ofBits (F := Ideal) .f32 0x00000000#32)) (ix2 p r)
      = Cert.Spec.hot r (et (ix2 p 0)) := by
  have e1 : iota .tc S5000x401 32 [1] hi (ix2 p r) = BitVec.ofNat 32 r.val :=
    iota_single_apply .tc S5000x401 32 1 hi (ix2 p r)
  have e2 : broadcastTo S5000x401 (shapeCast S5000x1 et hs) hb (ix2 p r) = et (ix2 p 0) := by
    rw [shapeCast_self]
    exact broadcastTo_apply et hb (ix2 p r) (ix2 p 0) (fun a => by match a with | ⟨0, _⟩ => rfl | ⟨1, _⟩ => rfl)
  show Scalar.select (IntOp.cmpi .eq (iota .tc S5000x401 32 [1] hi (ix2 p r))
      (broadcastTo S5000x401 (shapeCast S5000x1 et hs) hb (ix2 p r))) _ _ = _
  rw [e1, e2]
  unfold Cert.Spec.hot Scalar.select IntOp.cmpi
  by_cases h : BitVec.ofNat 32 r.val = et (ix2 p 0)
  · have hb' : (BitVec.ofNat 32 r.val == et (ix2 p 0)) = true := beq_iff_eq.mpr h
    rw [if_pos h, if_pos (by rw [hb']; rfl)]; rfl
  · have hb' : (BitVec.ofNat 32 r.val == et (ix2 p 0)) = false := beq_eq_false_iff_ne.mpr h
    rw [if_neg h, if_neg (by rw [hb']; show ¬BitVec.ofBool false = 1#1; decide)]; rfl

/-! ## The payload at an index -/

/-- The body's stored value at `(p, q)`: the row of `hj` minus the one-hot combination of the relation rows, times
    the weight matrix, times the row's normalisation. -/
theorem payload_apply (et : Vec Ideal S5000x1 .i32) (rf : Vec Ideal S401x128 .f32) (hj : Vec Ideal S5000x128 .bf16)
    (w : Vec Ideal S1x128x128 .f32) (nm : Vec Ideal S5000x1 .f32) (p : Fin 5000) (q : Fin 128) :
    k0_pay1 (F := Ideal) et rf hj w nm (ix2 p q)
      = (∑ k : Fin 128, (hj (ix2 p k) - ∑ r : Fin 401, Cert.Spec.hot r (et (ix2 p 0)) * rf (ix2 r k))
          * w (ix3 (0 : Fin 1) k q)) * nm (ix2 p 0) := by
  have hnm : ∀ (hs : S5000x1.ShapeCasts S5000x1) (hb : S5000x1.Broadcasts S5000x128),
      broadcastTo S5000x128 (shapeCast S5000x1 nm hs) hb (ix2 p q) = nm (ix2 p 0) := fun hs hb => by
    rw [shapeCast_self]
    exact broadcastTo_apply nm hb (ix2 p q) (ix2 p 0) (fun a => by match a with | ⟨0, _⟩ => rfl | ⟨1, _⟩ => rfl)
  unfold k0_pay1
  refine congrArg₂ (fun a b : EReal => a * b)
    ((weightProduct_apply _ _ p q).trans (Finset.sum_congr rfl fun k _ => ?_)) (hnm _ _)
  refine congrArg₂ (fun a b : EReal => a * b)
    (congrArg₂ (fun a b : EReal => a - b) (congrFun (shapeCast_self hj _) (ix2 p k)) ?_)
    (shapeCast_1ab_ab_apply w _ k q)
  exact (hotProduct_apply _ _ p k).trans (Finset.sum_congr rfl fun r _ =>
    congrArg₂ (fun a b : EReal => a * b) (oneHot_apply et _ _ _ p r) (congrFun (shapeCast_self rf _) (ix2 r k)))

end Cert.KernelIdeal.EdgePayload

end
-- ==== Proof.EdgeValue.lean ====
/-
  The array the first kernel leaves: the edge messages `Cert.Spec.edgeMsg` of the five arrays the kernel reads, index
  by index.

  One block: with the loaded blocks rows `t * 5000 …` of the three edge arrays, the whole relation table and weight
  matrix `t / 80`, the stored value at row `p` is the message of edge `t * 5000 + p` — and `t / 80` is that edge's
  half, `(t * 5000 + p) / 400000`. The index maps over the 160 points: the edge blocks and the output block are at block
  row `t`, the relation table at block (0, 0), the weight matrix at block (t / 80, 0, 0); a block's coordinate is index
  × size + the coordinate inside it. So what point `t` writes back is block `t` of the messages; row `e` is in the
  block of point `e / 5000`; the blocks cover the array.
-/
import proofs.«404528_j34351148433957_3_alg».proof.Proof.Gen.KernelIdeal.Frame
import proofs.«404528_j34351148433957_3_alg».proof.Proof.Spec
import proofs.«404528_j34351148433957_3_alg».proof.Proof.EdgePayload
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgeValue

open Cert.KernelIdeal Cert.KernelIdeal.Gen
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- One block of 5000 edges: when the loaded blocks are rows `t * 5000 …` of the edge arrays, the whole relation
    table and weight matrix `t / 80`, the stored value at row `p` is the message of edge `t * 5000 + p`. -/
theorem block_apply (hjA : (⟨2, ![800000, 128]⟩ : Shape).Idx → EReal) (etA : (⟨2, ![800000, 1]⟩ : Shape).Idx → BitVec 32)
    (nmA : (⟨2, ![800000, 1]⟩ : Shape).Idx → EReal) (rfA : (⟨2, ![401, 128]⟩ : Shape).Idx → EReal)
    (wsA : (⟨3, ![2, 128, 128]⟩ : Shape).Idx → EReal)
    (etb : Vec Ideal S5000x1 .i32) (rfb : Vec Ideal S401x128 .f32) (hjb : Vec Ideal S5000x128 .bf16)
    (wb : Vec Ideal S1x128x128 .f32) (nmb : Vec Ideal S5000x1 .f32)
    (t : Nat) (ht : t < 160) (p : Fin 5000) (q : Fin 128)
    (hhj : ∀ k : Fin 128, hjb (ix2 p k) = hjA (ix2 (⟨t * 5000 + p.val, by omega⟩ : Fin 800000) k))
    (het : etb (ix2 p 0) = etA (ix2 (⟨t * 5000 + p.val, by omega⟩ : Fin 800000) 0))
    (hnm : nmb (ix2 p 0) = nmA (ix2 (⟨t * 5000 + p.val, by omega⟩ : Fin 800000) 0))
    (hrf : ∀ (r : Fin 401) (k : Fin 128), rfb (ix2 r k) = rfA (ix2 r k))
    (hw : ∀ k : Fin 128, wb (ix3 (0 : Fin 1) k q) = wsA (ix3 (⟨t / 80, by omega⟩ : Fin 2) k q))
    (i : (⟨2, ![800000, 128]⟩ : Shape).Idx) (hi0 : (i 0).val = t * 5000 + p.val) (hi1 : (i 1).val = q.val) :
    k0_pay1 (F := Ideal) etb rfb hjb wb nmb (ix2 p q) = Cert.Spec.edgeMsg hjA etA nmA rfA wsA i := by
  rw [EdgePayload.payload_apply]
  simp only [hhj, het, hnm, hrf, hw]
  unfold Cert.Spec.edgeMsg Cert.Spec.edgeAt
  have he : (⟨(i 0).val, idx2_lt0 i⟩ : Fin 800000) = ⟨t * 5000 + p.val, by omega⟩ := Fin.ext hi0
  have hd : (⟨(i 1).val, idx2_lt1 i⟩ : Fin 128) = q := Fin.ext hi1
  have hh : Cert.Spec.half (⟨t * 5000 + p.val, by omega⟩ : Fin 800000) = ⟨t / 80, by omega⟩ :=
    Fin.ext (by show (t * 5000 + p.val) / 400000 = t / 80; omega)
  rw [he, hd, hh]

/-- The printed index maps, decided over the grid: the edge blocks and the output block move with the point, the
    relation table stays, the weight matrix is the point's half. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val / 80 ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of the edge messages of the arrays as the region finds them. -/
theorem flushed_eq (c : Dev nD) (t : Fin cfg0.N) :
    (dat0 (F := Ideal) V c).flushed 5 t = ((cfg0.win 5).blk t).view.read (Elt Ideal)
      (Cert.Spec.edgeMsg (V c main_v80) (V c main_v85) (V c main_v86) (V c main_v84) (V c main_v83)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S5000x1) zero2,
    View.ld_unit_zero (S := S401x128) zero2, View.ld_unit_zero (S := S1x128x128) zero3]
  funext j
  obtain ⟨p, q, rfl⟩ : ∃ (p : Fin 5000) (q : Fin 128), j = ix2 p q := ⟨j 0, j 1, eq_ix2 j⟩
  obtain ⟨a00, a01, a10, a11, a20, a21, a30, a31, a40, a41, a42, a50, a51⟩ := blockIndex t
  have ht : t.val < 160 := lt_of_lt_of_eq t.isLt N_0
  show k0_pay1 (F := Ideal) (iblk0 V c 1 t) (iblk0 V c 3 t) (iblk0 V c 0 t) (iblk0 V c 4 t) (iblk0 V c 2 t) (ix2 p q)
    = Cert.Spec.edgeMsg (V c main_v80) (V c main_v85) (V c main_v86) (V c main_v84) (V c main_v83)
        (((cfg0.win 5).blk t).view.emb (ix2 p q))
  refine block_apply (V c main_v80) (V c main_v85) (V c main_v86) (V c main_v84) (V c main_v83)
    (iblk0 V c 1 t) (iblk0 V c 3 t) (iblk0 V c 0 t) (iblk0 V c 4 t) (iblk0 V c 2 t) t.val ht p q
    ?_ ?_ ?_ ?_ ?_ (((cfg0.win 5).blk t).view.emb (ix2 p q)) ?_ ?_
  · intro k
    show V c main_v80 (((cfg0.win 0).blk t).view.emb (ix2 p k)) = V c main_v80 _
    refine congrArg _ (funext fun a => Fin.ext ?_)
    match a with
    | ⟨0, _⟩ => show win0_0.index t (0 : Fin 2) * 5000 + 1 * p.val = t.val * 5000 + p.val; rw [a00]; omega
    | ⟨1, _⟩ => show win0_0.index t (1 : Fin 2) * 128 + 1 * k.val = k.val; rw [a01]; omega
  · show V c main_v85 (((cfg0.win 1).blk t).view.emb (ix2 p 0)) = V c main_v85 _
    refine congrArg _ (funext fun a => Fin.ext ?_)
    match a with
    | ⟨0, _⟩ => show win0_1.index t (0 : Fin 2) * 5000 + 1 * p.val = t.val * 5000 + p.val; rw [a10]; omega
    | ⟨1, _⟩ => show win0_1.index t (1 : Fin 2) * 1 + 1 * 0 = 0; rw [a11]
  · show V c main_v86 (((cfg0.win 2).blk t).view.emb (ix2 p 0)) = V c main_v86 _
    refine congrArg _ (funext fun a => Fin.ext ?_)
    match a with
    | ⟨0, _⟩ => show win0_2.index t (0 : Fin 2) * 5000 + 1 * p.val = t.val * 5000 + p.val; rw [a20]; omega
    | ⟨1, _⟩ => show win0_2.index t (1 : Fin 2) * 1 + 1 * 0 = 0; rw [a21]
  · intro r k
    show V c main_v84 (((cfg0.win 3).blk t).view.emb (ix2 r k)) = V c main_v84 _
    refine congrArg _ (funext fun a => Fin.ext ?_)
    match a with
    | ⟨0, _⟩ => show win0_3.index t (0 : Fin 2) * 401 + 1 * r.val = r.val; rw [a30]; omega
    | ⟨1, _⟩ => show win0_3.index t (1 : Fin 2) * 128 + 1 * k.val = k.val; rw [a31]; omega
  · intro k
    show V c main_v83 (((cfg0.win 4).blk t).view.emb (ix3 (0 : Fin 1) k q)) = V c main_v83 _
    refine congrArg _ (funext fun a => Fin.ext ?_)
    match a with
    | ⟨0, _⟩ => show win0_4.index t (0 : Fin 3) * 1 + 1 * 0 = t.val / 80; rw [a40]; omega
    | ⟨1, _⟩ => show win0_4.index t (1 : Fin 3) * 128 + 1 * k.val = k.val; rw [a41]; omega
    | ⟨2, _⟩ => show win0_4.index t (2 : Fin 3) * 128 + 1 * q.val = q.val; rw [a42]; omega
  · show win0_5.index t (0 : Fin 2) * 5000 + 1 * p.val = t.val * 5000 + p.val; rw [a50]; omega
  · show win0_5.index t (1 : Fin 2) * 128 + 1 * q.val = q.val; rw [a51]; omega

/-- An index of the array is in point `t`'s block iff each coordinate is in the block's range on its axis. -/
theorem mem_block (t : Fin cfg0.N) (i : S800000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v87).slice (win0_5.rect t)).set ↔ _
  rw [View.set_slice_whole, Rect.mem_set_unit]
  exact Iff.rfl

/-- Row `e` of the 800000 is in the block of the point `e / 5000`, which is written back. -/
theorem covered (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hlt : (i 0).val / 5000 < cfg0.N := lt_of_lt_of_eq (by omega) N_0.symm
  obtain ⟨-, -, -, -, -, -, -, -, -, -, -, a50, a51⟩ := blockIndex ⟨(i 0).val / 5000, hlt⟩
  refine ⟨⟨(i 0).val / 5000, hlt⟩, flush0_5 _, ?_⟩
  rw [mem_block]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [a50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [a51]
    omega

/-- THE ARRAY after the run of the first kernel: the edge messages of the arrays as the region finds them. -/
theorem final (c : Dev nD) :
    (dat0 (F := Ideal) V c).arrAt 5 cfg0.N
      = Cert.Spec.edgeMsg (V c main_v80) (V c main_v85) (V c main_v86) (V c main_v84) (V c main_v83) :=
  (dat0 (F := Ideal) V c).arrAt_eq_of_cover 5 _ (fun t _ => flushed_eq V c t) covered

end Cert.KernelIdeal.EdgeValue

end
-- ==== Proof.CombineValue.lean ====
/-
  The value of the combination region: the result array after the region's twenty grid points, as one function of the
  five arrays the region reads.

  Point `t` of the grid reads rows `5000 t … 5000 t + 4999` of the feature array `x` and of the accumulator `acc`, the
  whole loop relation row `lr`, the whole loop weight matrix `wl` and the whole bias row `b`, and writes the same rows
  of the result:
    out i d = tanh ((acc i d + ∑ k, (x i k - lr 0 k) * wl k d) * c + b 0 d),   c the word 0x3EAAAAAB.
  Here: the contraction read at an index (`matmul_at`), the body's arithmetic at an index (`payload_at`), each input
  block as rows of its array (`xblk_apply`, `accblk_apply`, `lrblk_eq`, `wlblk_eq`, `bblk_eq`), what a point writes back
  (`flushed_eq`), the blocks' cover of the result array (`mem_blk`, `covered`), and the array after the region (`final`).
-/
import proofs.«404528_j34351148433957_3_alg».proof.Proof.Gen.KernelIdeal.Frame
import proofs.«404528_j34351148433957_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue

open Cert.KernelIdeal Cert.KernelIdeal.Gen
open Idealize.ShloMosaic Idealize.ShloMosaic.TcCoe Idealize.SL.Sem Idealize.ShloMosaic.ValueIdx
open Idealize.ShloMosaic.Pipeline (Dat)

/-! ## The contraction's operand indices, axis by axis -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero splat, read at `(p, q)`: the sum over the contracted coordinate. -/
theorem matmul_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The body's arithmetic at an index -/

/-- The body's result at `(p, q)` of the block: `tanh ((acc + (x - lr) · wl) * c + b)`. -/
theorem payload_at (x : Vec Ideal S5000x128 .f32) (lr : Vec Ideal S1x128 .f32) (wl : Vec Ideal S128x128 .f32)
    (acc : Vec Ideal S5000x128 .f32) (b : Vec Ideal S1x128 .f32) (p : Fin 5000) (q : Fin 128) :
    k1_pay1 (F := Ideal) x lr wl acc b (ix2 p q)
      = Ideal.tanh ((acc (ix2 p q) + ∑ k : Fin 128, (x (ix2 p k) - lr (ix2 (0 : Fin 1) k)) * wl (ix2 k q))
          * Ideal.ofBits .f32 0x3EAAAAAB#32 + b (ix2 (0 : Fin 1) q)) := by
  unfold k1_pay1
  show Ideal.tanh ((shapeCast S5000x128 acc shapeCasts_S5000x128_S5000x128 (ix2 p q)
      + matmul dot_S5000x128_S128x128_S5000x128_1_0_0_1_n_n none
          (truncf .bf16 (subf x (broadcastTo S5000x128 lr broadcasts_S1x128_S5000x128)) bitsLt_bf16_f32)
          (truncf .bf16 wl bitsLt_bf16_f32) (constant (F := Ideal) S5000x128 .f32 0x00000000#32) (ix2 p q))
      * Ideal.ofBits .f32 0x3EAAAAAB#32
      + broadcastTo S5000x128 (shapeCast S1x128 b shapeCasts_S1x128_S1x128) broadcasts_S1x128_S5000x128 (ix2 p q)) = _
  have hacc : shapeCast S5000x128 acc shapeCasts_S5000x128_S5000x128 = acc := shapeCast_self _ _
  have hb : broadcastTo S5000x128 (shapeCast S1x128 b shapeCasts_S1x128_S1x128) broadcasts_S1x128_S5000x128 (ix2 p q)
      = b (ix2 (0 : Fin 1) q) := by
    rw [shapeCast_self]; exact broadcastTo_1b_ab_apply _ _ p q
  have hsum : matmul dot_S5000x128_S128x128_S5000x128_1_0_0_1_n_n none
          (truncf .bf16 (subf x (broadcastTo S5000x128 lr broadcasts_S1x128_S5000x128)) bitsLt_bf16_f32)
          (truncf .bf16 wl bitsLt_bf16_f32) (constant (F := Ideal) S5000x128 .f32 0x00000000#32) (ix2 p q)
      = ∑ k : Fin 128, (x (ix2 p k) - lr (ix2 (0 : Fin 1) k)) * wl (ix2 k q) := by
    rw [matmul_at]
    refine Finset.sum_congr rfl fun k _ => ?_
    show (x (ix2 p k) - broadcastTo S5000x128 lr broadcasts_S1x128_S5000x128 (ix2 p k)) * wl (ix2 k q) = _
    rw [broadcastTo_1b_ab_apply]
  rw [hacc, hb, hsum]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the entity blocks (features in, accumulator, result) sit at block row `t`,
    the loop relation row, the loop weight matrix and the bias row at block `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point `t` is rows `5000 t … 5000 t + 4999` of the feature array. -/
theorem xblk_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_arg0 : S100000x128.Idx → EReal) i := by
  obtain ⟨e0, e1, -⟩ := index_facts t
  unfold iblk1
  rw [View.read_apply]
  show V c main_arg0 _ = V c main_arg0 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The accumulator block at point `t` is the same rows of the accumulator array. -/
theorem accblk_apply (c : Dev nD) (t : Fin cfg1.N) (y : S5000x128.Idx) (i : S100000x128.Idx)
    (h0 : (i 0).val = 5000 * t.val + (y 0).val) (h1 : (i 1).val = (y 1).val) :
    (iblk1 V c 3 t : Vec Ideal S5000x128 .f32) y = (V c main_v96 : S100000x128.Idx → EReal) i := by
  obtain ⟨-, -, -, -, -, -, e0, e1, -⟩ := index_facts t
  unfold iblk1
  rw [View.read_apply]
  show V c main_v96 _ = V c main_v96 _
  congr 1
  funext a
  apply Fin.ext
  match a with
  | ⟨0, _⟩ => show win1_3.index t 0 * 5000 + 1 * (y 0).val = (i 0).val; rw [e0, h0]; omega
  | ⟨1, _⟩ => show win1_3.index t 1 * 128 + 1 * (y 1).val = (i 1).val; rw [e1, h1]; omega

/-- The loop relation row's block is the whole row at every point. -/
theorem lrblk_eq (c : Dev nD) (t : Fin cfg1.N) :
    (iblk1 V c 1 t : Vec Ideal S1x128 .f32) = (V c main_arg8 : S1x128.Idx → EReal) := by
  obtain ⟨-, -, e0, e1, -⟩ := index_facts t
  funext y
  unfold iblk1
  rw [View.read_apply]
  show V c main_arg8 _ = V c main_arg8 y
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

/-- The loop weight matrix's block is the whole matrix at every point. -/
theorem wlblk_eq (c : Dev nD) (t : Fin cfg1.N) :
    (iblk1 V c 2 t : Vec Ideal S128x128 .f32) = (V c main_arg6 : S128x128.Idx → EReal) := by
  obtain ⟨-, -, -, -, e0, e1, -⟩ := index_facts t
  funext y
  unfold iblk1
  rw [View.read_apply]
  show V c main_arg6 _ = V c main_arg6 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row's block is the whole row at every point. -/
theorem bblk_eq (c : Dev nD) (t : Fin cfg1.N) :
    (iblk1 V c 4 t : Vec Ideal S1x128 .f32) = (V c main_v97 : S1x128.Idx → EReal) := by
  obtain ⟨-, -, -, -, -, -, -, -, e0, e1, -⟩ := index_facts t
  funext y
  unfold iblk1
  rw [View.read_apply]
  show V c main_v97 _ = V c main_v97 y
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- WHAT POINT `t` WRITES BACK is block `t` of the combination of the five arrays as the region finds them. -/
theorem flushed_eq (c : Dev nD) (t : Fin cfg1.N) :
    (dat1 (F := Ideal) V c).flushed 5 t = ((cfg1.win 5).blk t).view.read (Elt Ideal)
      (Cert.Spec.combine (V c main_arg0) (V c main_arg8) (V c main_arg6) (V c main_v96) (V c main_v97)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets,
    View.ld_unit_zero (S := S128x128) zero_offsets]
  obtain ⟨-, -, -, -, -, -, -, -, -, -, e0, e1⟩ := index_facts t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Spec.combine (V c main_arg0) (V c main_arg8) (V c main_arg6) (V c main_v96) (V c main_v97)
        (((cfg1.win 5).blk t).view.emb (ix2 p q))
  refine (payload_at (iblk1 V c 0 t) (iblk1 V c 1 t) (iblk1 V c 2 t) (iblk1 V c 3 t) (iblk1 V c 4 t) p q).trans ?_
  rw [lrblk_eq, wlblk_eq, bblk_eq]
  have r0 : ((((cfg1.win 5).blk t).view.emb (ix2 p q) : S100000x128.Idx) 0).val = 5000 * t.val + p.val := by
    show win1_5.index t 0 * 5000 + 1 * p.val = _; rw [e0]; omega
  have r1 : ((((cfg1.win 5).blk t).view.emb (ix2 p q) : S100000x128.Idx) 1).val = q.val := by
    show win1_5.index t 1 * 128 + 1 * q.val = _; rw [e1]; omega
  unfold Cert.Spec.combine Cert.Spec.combAt
  refine congrArg Ideal.tanh (congrArg₂ (· + ·) (congrArg (· * Ideal.ofBits .f32 0x3EAAAAAB#32) (congrArg₂ (· + ·) ?_ (Finset.sum_congr rfl fun k _ => congrArg₂ (· * ·) (congrArg₂ (· - ·) ?_ rfl) ?_))) ?_)
  · exact accblk_apply V c t (ix2 p q) _ r0 r1
  · exact xblk_apply V c t (ix2 p k) _ r0 rfl
  · exact congrArg (V c main_arg6 : S128x128.Idx → EReal) (funext fun a => Fin.ext (by match a with | ⟨0, _⟩ => rfl | ⟨1, _⟩ => exact r1.symm))
  · exact congrArg (V c main_v97 : S1x128.Idx → EReal) (funext fun a => Fin.ext (by match a with | ⟨0, _⟩ => rfl | ⟨1, _⟩ => exact r1.symm))

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v98).slice (win1_5.rect t)).set ↔ _
  rw [View.set_slice_whole, Rect.mem_set_unit]
  exact Iff.rfl

/-- Every index of the result array is in some point's block: row `r` is in the block of point `r / 5000`. -/
theorem covered (i : S100000x128.Idx) :
    ∃ t : Fin cfg1.N, (cfg1.win 5).flush t = true ∧ i ∈ ((cfg1.win 5).blk t).view.set := by
  have hN : cfg1.N = 20 := N_1
  have hi0 : (i 0).val < 100000 := idx2_lt0 i
  have hi1 : (i 1).val < 128 := idx2_lt1 i
  refine ⟨⟨(i 0).val / 5000, by rw [hN]; omega⟩, flush1_5 _, ?_⟩
  rw [mem_blk]
  obtain ⟨-, -, -, -, -, -, -, -, -, -, e0, e1⟩ := index_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE RESULT ARRAY after the region: the combination of the five arrays as the region finds them. -/
theorem final (c : Dev nD) :
    (dat1 (F := Ideal) V c).arrAt 5 cfg1.N
      = Cert.Spec.combine (V c main_arg0) (V c main_arg8) (V c main_arg6) (V c main_v96) (V c main_v97) :=
  (dat1 (F := Ideal) V c).arrAt_eq_of_cover 5 _ (fun t _ => flushed_eq V c t) covered

end Cert.KernelIdeal.CombineValue

end
-- ==== Proof.KernelTerms.lean ====
/-
  The arrays the kernel program's host operations build around its two calls, as functions of the argument arrays.

  Before the first call: the source rows gathered for every edge (`hjOf`), the edge types as a column (`et2Of`), the two
  halves' normalisations joined and laid as a column (`nm2Of`), the relation table with the loop relation appended
  (`rfOf`), the two weight matrices stacked (`wsOf`).  Between the calls: every edge message scatter-added at its
  destination row into a zero table (`accOf`), and the bias as a row (`b2Of`).
  Index words are wrapped Python-style before use (`wrapV`): `t + 100000` where `t` is negative.
-/
import proofs.«404528_j34351148433957_3_alg».proof.Proof.Gen.KernelIdeal

noncomputable section

namespace Cert.KernelIdeal.Host

open Cert.KernelIdeal Cert.KernelIdeal.Gen Idealize.ShloMosaic

variable {F : FTy → Type} [FloatOps F]

/-- Row 0 of the edge index: every edge's destination entity. -/
def rowOf (ei : IVec S2x800000 32) : IVec S800000 32 :=
  shapeCast _ (extractStridedSlice S1x800000 ![0, 0] ei slices_S2x800000_S1x800000_0_0) shapeCasts_S1x800000_S800000

/-- Row 1 of the edge index: every edge's source entity. -/
def colOf (ei : IVec S2x800000 32) : IVec S800000 32 :=
  shapeCast _ (extractStridedSlice S1x800000 ![1, 0] ei slices_S2x800000_S1x800000_1_0) shapeCasts_S1x800000_S800000

/-- Entity index words wrapped: `t + 100000` where `t < 0`. -/
def wrapV (v : IVec S800000 32) : IVec S800000 32 :=
  select (cmpi .slt v (broadcastInDim S800000 ![] bcast_S_S800000 (constantI S_ 32 0#32)))
    (addi v (broadcastInDim S800000 ![] bcast_S_S800000 (constantI S_ 32 100000#32))) v

/-- The source entity's row, for every edge. -/
def hjOf (x : FVec F S100000x128 .f32) (ei : IVec S2x800000 32) : FVec F S800000x128 .bf16 :=
  truncf .bf16 (Host.gather gather_S100000x128_S800000x1_S800000x128_1_0_n_n_0_1_1128 x
    (broadcastInDim S800000x1 ![0] bcast_S800000_S800000x1_0 (wrapV (colOf ei)))) bitsLt_bf16_f32

/-- The edge types as a column. -/
def et2Of (et : IVec S800000 32) : IVec S800000x1 32 := shapeCast _ et shapeCasts_S800000_S800000x1

/-- The two halves' normalisations, joined and laid as a column. -/
def nm2Of (a b : FVec F S400000 .f32) : FVec F S800000x1 .f32 :=
  shapeCast _ (concatenate S800000 0 [⟨S400000, a⟩, ⟨S400000, b⟩] concatenates_S400000_S400000_S800000_d0)
    shapeCasts_S800000_S800000x1

/-- The relation table with the loop relation as its last row. -/
def rfOf (r : FVec F S400x128 .f32) (lr : FVec F S1x128 .f32) : FVec F S401x128 .f32 :=
  concatenate S401x128 0 [⟨S400x128, r⟩, ⟨S1x128, lr⟩] concatenates_S400x128_S1x128_S401x128_d0

/-- The two weight matrices stacked. -/
def wsOf (win wout : FVec F S128x128 .f32) : FVec F S2x128x128 .f32 :=
  concatenate S2x128x128 0 [⟨S1x128x128, broadcastInDim S1x128x128 ![1, 2] bcast_S128x128_S1x128x128_1_2 win⟩,
    ⟨S1x128x128, broadcastInDim S1x128x128 ![1, 2] bcast_S128x128_S1x128x128_1_2 wout⟩]
    concatenates_S1x128x128_S1x128x128_S2x128x128_d0

/-- Every edge's message added into a zero table at the edge's destination row. -/
def accOf (ei : IVec S2x800000 32) (msg : FVec F S800000x128 .bf16) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 (wrapV (rowOf ei)))
    (extf .f32 msg bitsLt_bf16_f32)

/-- The bias as a row. -/
def b2Of (bias : FVec F S128 .f32) : FVec F S1x128 .f32 := shapeCast _ bias shapeCasts_S128_S1x128

end Cert.KernelIdeal.Host

end
-- ==== Proof.KernelHost.lean ====
/-
  What the host operations before the first call leave in the arrays its windows read, as functions of the argument
  arrays.

  The edge index's two rows are cut into halves of 400000 edges. Within a half, an entity's degree is the number of the
  half's edges whose (wrapped) destination it is; its inverse root degree is 1 / sqrt (max degree 1) where the degree is
  positive and 0 elsewhere; an edge's normalisation is the inverse root degree at its destination times that at its
  source, both read from the table of its own half's destinations (`normOf`, `normIn`, `normOut`).

  Then, stretch by stretch, each buffer a later stretch reads is written as a term over the argument arrays, down to the
  five arrays the first call's windows read: the gathered source rows, the edge types as a column, the normalisations as
  a column, the relation table with the loop relation appended, the stacked weight matrices.
-/
import proofs.«404528_j34351148433957_3_alg».proof.Proof.Gen.KernelIdeal.Frame
import proofs.«404528_j34351148433957_3_alg».proof.Proof.KernelTerms

set_option maxRecDepth 16384

noncomputable section

namespace Cert.KernelIdeal.Host

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

/-! ## The normalisation of one half of the edges -/

/-- The first 400000 entries of an edge row. -/
def loHalf (v : IVec S800000 32) : IVec S400000 32 := extractStridedSlice S400000 ![0] v slices_S800000_S400000_0

/-- The last 400000 entries of an edge row. -/
def hiHalf (v : IVec S800000 32) : IVec S400000 32 := extractStridedSlice S400000 ![400000] v slices_S800000_S400000_400000

/-- Entity index words of one half wrapped: `t + 100000` where `t < 0`. -/
def wrapH (v : IVec S400000 32) : IVec S400000 32 :=
  select (cmpi .slt v (broadcastInDim S400000 ![] bcast_S_S400000 (constantI S_ 32 0#32)))
    (addi v (broadcastInDim S400000 ![] bcast_S_S400000 (constantI S_ 32 100000#32))) v

/-- How many edges of one half have each entity as their destination: ones added into a zero table. -/
def degOf (d : IVec S400000 32) : FVec F S100000 .f32 :=
  Host.scatterAdd scatter_S100000_S400000x1_S400000_n_0_0_1
    (broadcastInDim S100000 ![] bcast_S_S100000 (constant S_ .f32 0x00000000#32))
    (broadcastInDim S400000x1 ![0] bcast_S400000_S400000x1_0 (wrapH d))
    (broadcastInDim S400000 ![] bcast_S_S400000 (constant S_ .f32 0x3F800000#32))

/-- Each entity's inverse root degree within one half, the degree taken at least 1; zero where the degree is not positive. -/
def dinvOf (d : IVec S400000 32) : FVec F S100000 .f32 :=
  select (cmpf .ogt (degOf (F := F) d) (broadcastInDim S100000 ![] bcast_S_S100000 (constant S_ .f32 0x00000000#32)))
    (Host.divf (broadcastInDim S100000 ![] bcast_S_S100000 (constant S_ .f32 0x3F800000#32))
      (Host.sqrt (maximumf (degOf (F := F) d) (broadcastInDim S100000 ![] bcast_S_S100000 (constant S_ .f32 0x3F800000#32)))))
    (broadcastInDim S100000 ![] bcast_S_S100000 (constant S_ .f32 0x00000000#32))

/-- One half's edge normalisations: the inverse root degree at the destination times that at the source. -/
def normOf (d s : IVec S400000 32) : FVec F S400000 .f32 :=
  mulf (Host.gather gather_S100000_S400000x1_S400000_n_0_n_n_0_1_1 (dinvOf (F := F) d)
      (broadcastInDim S400000x1 ![0] bcast_S400000_S400000x1_0 (wrapH d)))
    (Host.gather gather_S100000_S400000x1_S400000_n_0_n_n_0_1_1 (dinvOf (F := F) d)
      (broadcastInDim S400000x1 ![0] bcast_S400000_S400000x1_0 (wrapH s)))

/-- The normalisations of the first 400000 edges. -/
def normIn (ei : IVec S2x800000 32) : FVec F S400000 .f32 := normOf (loHalf (rowOf ei)) (loHalf (colOf ei))

/-- The normalisations of the last 400000 edges. -/
def normOut (ei : IVec S2x800000 32) : FVec F S400000 .f32 := normOf (hiHalf (rowOf ei)) (hiHalf (colOf ei))

variable (m : (ℓ : Loc nD τ sig) → Buf (Elt F) ℓ) (ρ : Dev nD → PrngReg)

/-- A buffer none of a stretch's operations writes keeps its contents through the stretch. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The first stretch: the edge index's rows, their halves, the first half's degrees -/

theorem W1_v1 (c : Dev nD) : W1 m ρ c (Proc.devRef .tc main_v1) = rowOf (m ((c.tc : Thread nD τ).loc main_arg2)) := by
  show StableHlo.after hostOps0 _ (Proc.devRef .tc main_v1) = _
  after_results; rfl
theorem W1_v3 (c : Dev nD) : W1 m ρ c (Proc.devRef .tc main_v3) = colOf (m ((c.tc : Thread nD τ).loc main_arg2)) := by
  show StableHlo.after hostOps0 _ (Proc.devRef .tc main_v3) = _
  after_results; rfl
theorem W1_v4 (c : Dev nD) : W1 m ρ c (Proc.devRef .tc main_v4) = loHalf (rowOf (m ((c.tc : Thread nD τ).loc main_arg2))) := by
  show StableHlo.after hostOps0 _ (Proc.devRef .tc main_v4) = _
  after_results; rfl
theorem W1_v5 (c : Dev nD) : W1 m ρ c (Proc.devRef .tc main_v5) = loHalf (colOf (m ((c.tc : Thread nD τ).loc main_arg2))) := by
  show StableHlo.after hostOps0 _ (Proc.devRef .tc main_v5) = _
  after_results; rfl
theorem W1_v6 (c : Dev nD) : W1 m ρ c (Proc.devRef .tc main_v6) = hiHalf (rowOf (m ((c.tc : Thread nD τ).loc main_arg2))) := by
  show StableHlo.after hostOps0 _ (Proc.devRef .tc main_v6) = _
  after_results; rfl
theorem W1_v7 (c : Dev nD) : W1 m ρ c (Proc.devRef .tc main_v7) = hiHalf (colOf (m ((c.tc : Thread nD τ).loc main_arg2))) := by
  show StableHlo.after hostOps0 _ (Proc.devRef .tc main_v7) = _
  after_results; rfl
theorem W1_v18 (c : Dev nD) : W1 m ρ c (Proc.devRef .tc main_v18) = cmpf .ogt (degOf (F := F) (loHalf (rowOf (m ((c.tc : Thread nD τ).loc main_arg2))))) (broadcastInDim S100000 ![] bcast_S_S100000 (constant S_ .f32 0x00000000#32)) := by
  show StableHlo.after hostOps0 _ (Proc.devRef .tc main_v18) = _
  after_results; rfl
set_option maxHeartbeats 1000000 in
theorem W1_v23 (c : Dev nD) : W1 m ρ c (Proc.devRef .tc main_v23)
    = Host.divf (broadcastInDim S100000 ![] bcast_S_S100000 (constant S_ .f32 0x3F800000#32)) (Host.sqrt (maximumf (degOf (F := F) (loHalf (rowOf (m ((c.tc : Thread nD τ).loc main_arg2))))) (broadcastInDim S100000 ![] bcast_S_S100000 (constant S_ .f32 0x3F800000#32)))) := by
  show StableHlo.after hostOps0 _ (Proc.devRef .tc main_v23) = _
  after_results
  simp only [degOf, wrapH, loHalf, rowOf]
  rfl
theorem W1_cst5 (c : Dev nD) : W1 m ρ c (Proc.devRef .tc main_cst_5) = constant (F := F) S_ .f32 0x00000000#32 := by
  show StableHlo.after hostOps0 _ (Proc.devRef .tc main_cst_5) = _
  after_results

/-! ## The second stretch: the first half's inverse root degrees -/

theorem W2_v24 (c : Dev nD) : W2 m ρ c (Proc.devRef .tc main_v24) = dinvOf (F := F) (loHalf (rowOf (m ((c.tc : Thread nD τ).loc main_arg2)))) := by
  show StableHlo.after hostOps0_1 (W1 m ρ c) (Proc.devRef .tc main_v24) = _
  generalize hV : W1 m ρ c = V
  after_results_simp
  simp only [StableHlo.TRef.ofBuf, StableHlo.TRef.toBuf, cast_eq]
  subst hV
  rw [W1_v18, W1_v23, W1_cst5]; rfl
theorem W2_v4 (c : Dev nD) : W2 m ρ c (Proc.devRef .tc main_v4) = loHalf (rowOf (m ((c.tc : Thread nD τ).loc main_arg2))) :=
  calc W2 m ρ c (Proc.devRef .tc main_v4)
    _ = W1 m ρ c (Proc.devRef .tc main_v4) := by keeps hostOps0_1
    _ = loHalf (rowOf (m ((c.tc : Thread nD τ).loc main_arg2))) := W1_v4 m ρ c

theorem W2_v5 (c : Dev nD) : W2 m ρ c (Proc.devRef .tc main_v5) = loHalf (colOf (m ((c.tc : Thread nD τ).loc main_arg2))) :=
  calc W2 m ρ c (Proc.devRef .tc main_v5)
    _ = W1 m ρ c (Proc.devRef .tc main_v5) := by keeps hostOps0_1
    _ = loHalf (colOf (m ((c.tc : Thread nD τ).loc main_arg2))) := W1_v5 m ρ c

theorem W2_v6 (c : Dev nD) : W2 m ρ c (Proc.devRef .tc main_v6) = hiHalf (rowOf (m ((c.tc : Thread nD τ).loc main_arg2))) :=
  calc W2 m ρ c (Proc.devRef .tc main_v6)
    _ = W1 m ρ c (Proc.devRef .tc main_v6) := by keeps hostOps0_1
    _ = hiHalf (rowOf (m ((c.tc : Thread nD τ).loc main_arg2))) := W1_v6 m ρ c

/-! ## The third stretch: the first half's normalisations, the second half's degrees -/

theorem W3_v39 (c : Dev nD) : W3 m ρ c (Proc.devRef .tc main_v39) = normIn (F := F) (m ((c.tc : Thread nD τ).loc main_arg2)) := by
  show StableHlo.after hostOps0_2 (W2 m ρ c) (Proc.devRef .tc main_v39) = _
  generalize hV : W2 m ρ c = V
  after_results_simp
  subst hV
  rw [W2_v24, W2_v4, W2_v5]
  rfl

theorem W3_v50 (c : Dev nD) : W3 m ρ c (Proc.devRef .tc main_v50) = cmpf .ogt (degOf (F := F) (hiHalf (rowOf (m ((c.tc : Thread nD τ).loc main_arg2))))) (broadcastInDim S100000 ![] bcast_S_S100000 (constant S_ .f32 0x00000000#32)) := by
  show StableHlo.after hostOps0_2 (W2 m ρ c) (Proc.devRef .tc main_v50) = _
  generalize hV : W2 m ρ c = V
  after_results_simp
  subst hV
  rw [W2_v6]
  rfl

set_option maxHeartbeats 1000000 in
theorem W3_v55 (c : Dev nD) : W3 m ρ c (Proc.devRef .tc main_v55) = Host.divf (broadcastInDim S100000 ![] bcast_S_S100000 (constant S_ .f32 0x3F800000#32)) (Host.sqrt (maximumf (degOf (F := F) (hiHalf (rowOf (m ((c.tc : Thread nD τ).loc main_arg2))))) (broadcastInDim S100000 ![] bcast_S_S100000 (constant S_ .f32 0x3F800000#32)))) := by
  show StableHlo.after hostOps0_2 (W2 m ρ c) (Proc.devRef .tc main_v55) = _
  generalize hV : W2 m ρ c = V
  after_results_simp
  subst hV
  rw [W2_v6]
  simp only [degOf, wrapH]

theorem W3_cst17 (c : Dev nD) : W3 m ρ c (Proc.devRef .tc main_cst_17) = constant (F := F) S_ .f32 0x00000000#32 := by
  show StableHlo.after hostOps0_2 (W2 m ρ c) (Proc.devRef .tc main_cst_17) = _
  generalize hV : W2 m ρ c = V
  after_results_simp

theorem W3_v6 (c : Dev nD) : W3 m ρ c (Proc.devRef .tc main_v6) = hiHalf (rowOf (m ((c.tc : Thread nD τ).loc main_arg2))) :=
  calc W3 m ρ c (Proc.devRef .tc main_v6)
    _ = W2 m ρ c (Proc.devRef .tc main_v6) := by keeps hostOps0_2
    _ = hiHalf (rowOf (m ((c.tc : Thread nD τ).loc main_arg2))) := W2_v6 m ρ c

theorem W3_v7 (c : Dev nD) : W3 m ρ c (Proc.devRef .tc main_v7) = hiHalf (colOf (m ((c.tc : Thread nD τ).loc main_arg2))) :=
  calc W3 m ρ c (Proc.devRef .tc main_v7)
    _ = W2 m ρ c (Proc.devRef .tc main_v7) := by keeps hostOps0_2
    _ = W1 m ρ c (Proc.devRef .tc main_v7) := by keeps hostOps0_1
    _ = hiHalf (colOf (m ((c.tc : Thread nD τ).loc main_arg2))) := W1_v7 m ρ c

/-! ## The fourth stretch: the second half's inverse root degrees -/

theorem W4_v56 (c : Dev nD) : W4 m ρ c (Proc.devRef .tc main_v56) = dinvOf (F := F) (hiHalf (rowOf (m ((c.tc : Thread nD τ).loc main_arg2)))) := by
  show StableHlo.after hostOps0_3 (W3 m ρ c) (Proc.devRef .tc main_v56) = _
  generalize hV : W3 m ρ c = V
  after_results_simp
  simp only [StableHlo.TRef.ofBuf, StableHlo.TRef.toBuf, cast_eq]
  subst hV
  rw [W3_v50, W3_v55, W3_cst17]
  rfl

theorem W4_v39 (c : Dev nD) : W4 m ρ c (Proc.devRef .tc main_v39) = normIn (F := F) (m ((c.tc : Thread nD τ).loc main_arg2)) :=
  calc W4 m ρ c (Proc.devRef .tc main_v39)
    _ = W3 m ρ c (Proc.devRef .tc main_v39) := by keeps hostOps0_3
    _ = normIn (F := F) (m ((c.tc : Thread nD τ).loc main_arg2)) := W3_v39 m ρ c

theorem W4_v6 (c : Dev nD) : W4 m ρ c (Proc.devRef .tc main_v6) = hiHalf (rowOf (m ((c.tc : Thread nD τ).loc main_arg2))) :=
  calc W4 m ρ c (Proc.devRef .tc main_v6)
    _ = W3 m ρ c (Proc.devRef .tc main_v6) := by keeps hostOps0_3
    _ = hiHalf (rowOf (m ((c.tc : Thread nD τ).loc main_arg2))) := W3_v6 m ρ c

theorem W4_v7 (c : Dev nD) : W4 m ρ c (Proc.devRef .tc main_v7) = hiHalf (colOf (m ((c.tc : Thread nD τ).loc main_arg2))) :=
  calc W4 m ρ c (Proc.devRef .tc main_v7)
    _ = W3 m ρ c (Proc.devRef .tc main_v7) := by keeps hostOps0_3
    _ = hiHalf (colOf (m ((c.tc : Thread nD τ).loc main_arg2))) := W3_v7 m ρ c

theorem W4_v3 (c : Dev nD) : W4 m ρ c (Proc.devRef .tc main_v3) = colOf (m ((c.tc : Thread nD τ).loc main_arg2)) :=
  calc W4 m ρ c (Proc.devRef .tc main_v3)
    _ = W3 m ρ c (Proc.devRef .tc main_v3) := by keeps hostOps0_3
    _ = W2 m ρ c (Proc.devRef .tc main_v3) := by keeps hostOps0_2
    _ = W1 m ρ c (Proc.devRef .tc main_v3) := by keeps hostOps0_1
    _ = colOf (m ((c.tc : Thread nD τ).loc main_arg2)) := W1_v3 m ρ c

theorem W4_arg0 (c : Dev nD) : W4 m ρ c (Proc.devRef .tc main_arg0) = m ((c.tc : Thread nD τ).loc main_arg0) :=
  calc W4 m ρ c (Proc.devRef .tc main_arg0)
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c.tc : Thread nD τ).loc main_arg0) := rfl

theorem W4_arg1 (c : Dev nD) : W4 m ρ c (Proc.devRef .tc main_arg1) = m ((c.tc : Thread nD τ).loc main_arg1) :=
  calc W4 m ρ c (Proc.devRef .tc main_arg1)
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c.tc : Thread nD τ).loc main_arg1) := rfl

theorem W4_arg3 (c : Dev nD) : W4 m ρ c (Proc.devRef .tc main_arg3) = m ((c.tc : Thread nD τ).loc main_arg3) :=
  calc W4 m ρ c (Proc.devRef .tc main_arg3)
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c.tc : Thread nD τ).loc main_arg3) := rfl

theorem W4_arg4 (c : Dev nD) : W4 m ρ c (Proc.devRef .tc main_arg4) = m ((c.tc : Thread nD τ).loc main_arg4) :=
  calc W4 m ρ c (Proc.devRef .tc main_arg4)
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c.tc : Thread nD τ).loc main_arg4) := rfl

theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c.tc : Thread nD τ).loc main_arg5) := rfl

theorem W4_arg8 (c : Dev nD) : W4 m ρ c (Proc.devRef .tc main_arg8) = m ((c.tc : Thread nD τ).loc main_arg8) :=
  calc W4 m ρ c (Proc.devRef .tc main_arg8)
    _ = W3 m ρ c (Proc.devRef .tc main_arg8) := by keeps hostOps0_3
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c.tc : Thread nD τ).loc main_arg8) := rfl

/-! ## The fifth stretch: what the first call's windows read -/

/-- The source rows: every edge's source entity's row of the entity table, rounded to the narrower format. -/
theorem V5_v80 (c : Dev nD) : V5 m ρ c main_v80 = hjOf (m ((c.tc : Thread nD τ).loc main_arg0)) (m ((c.tc : Thread nD τ).loc main_arg2)) := by
  show StableHlo.after hostOps0_4 (W4 m ρ c) (Proc.devRef .tc main_v80) = _
  generalize hV : W4 m ρ c = V
  after_results_simp
  subst hV
  rw [W4_arg0, W4_v3]
  rfl

/-- The edge types as a column. -/
theorem V5_v85 (c : Dev nD) : V5 m ρ c main_v85 = et2Of (m ((c.tc : Thread nD τ).loc main_arg3)) := by
  show StableHlo.after hostOps0_4 (W4 m ρ c) (Proc.devRef .tc main_v85) = _
  generalize hV : W4 m ρ c = V
  after_results
  subst hV
  rw [W4_arg3]
  rfl

set_option maxHeartbeats 4000000 in
/-- The two halves' normalisations, joined and laid as a column. -/
theorem V5_v86 (c : Dev nD) : V5 m ρ c main_v86 = nm2Of (normIn (F := F) (m ((c.tc : Thread nD τ).loc main_arg2))) (normOut (F := F) (m ((c.tc : Thread nD τ).loc main_arg2))) := by
  show StableHlo.after hostOps0_4 (W4 m ρ c) (Proc.devRef .tc main_v86) = _
  generalize hV : W4 m ρ c = V
  after_results
  subst hV
  rw [W4_v39, W4_v56, W4_v6, W4_v7]
  rfl

set_option maxHeartbeats 4000000 in
/-- The relation table with the loop relation as its last row. -/
theorem V5_v84 (c : Dev nD) : V5 m ρ c main_v84 = rfOf (m ((c.tc : Thread nD τ).loc main_arg1)) (m ((c.tc : Thread nD τ).loc main_arg8)) := by
  show StableHlo.after hostOps0_4 (W4 m ρ c) (Proc.devRef .tc main_v84) = _
  generalize hV : W4 m ρ c = V
  after_results
  subst hV
  rw [W4_arg1, W4_arg8]
  rfl

set_option maxHeartbeats 4000000 in
/-- The two weight matrices stacked. -/
theorem V5_v83 (c : Dev nD) : V5 m ρ c main_v83 = wsOf (m ((c.tc : Thread nD τ).loc main_arg4)) (m ((c.tc : Thread nD τ).loc main_arg5)) := by
  show StableHlo.after hostOps0_4 (W4 m ρ c) (Proc.devRef .tc main_v83) = _
  generalize hV : W4 m ρ c = V
  after_results
  subst hV
  rw [W4_arg4, W4_arg5]
  rfl

end Cert.KernelIdeal.Host

end
-- ==== Proof.KernelHost2.lean ====
/-
  What the buffers hold after the first call: the arguments still as launched, the bias laid as a row, the accumulator
  of all edge messages, the second call's output, and the last product.
-/
import proofs.«404528_j34351148433957_3_alg».proof.Proof.Gen.KernelIdeal.Frame
import proofs.«404528_j34351148433957_3_alg».proof.Proof.KernelTerms
import Idealize.ShloMosaic.Lib.StableHlo.Run

set_option maxRecDepth 16384

noncomputable section

namespace Cert.KernelIdeal.Host2

open Cert.KernelIdeal Cert.KernelIdeal.Gen Cert.KernelIdeal.Host Idealize.ShloMosaic Idealize.ShloMosaic.StableHlo

variable {F : FTy → Type} [FloatOps F]
variable (m : (ℓ : Loc nD τ sig) → Buf (Elt F) ℓ) (ρ : Dev nD → PrngReg)

/-- A buffer that no operation of a stretch writes holds after the stretch what it held before. -/
macro "carry_through" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments, carried back to the launch -/

/-- Argument 0 at the first call's entry is as launched: no operation before the call writes it. -/
theorem W5_arg0 (c : Dev nD) : W5 m ρ c (Proc.devRef .tc main_arg0) = m ((c.tc : Thread nD τ).loc main_arg0) :=
  calc W5 m ρ c (Proc.devRef .tc main_arg0)
    _ = W4 m ρ c (Proc.devRef .tc main_arg0) := by carry_through hostOps0_4
    _ = W3 m ρ c (Proc.devRef .tc main_arg0) := by carry_through hostOps0_3
    _ = W2 m ρ c (Proc.devRef .tc main_arg0) := by carry_through hostOps0_2
    _ = W1 m ρ c (Proc.devRef .tc main_arg0) := by carry_through hostOps0_1
    _ = W0 m ρ c (Proc.devRef .tc main_arg0) := by carry_through hostOps0
    _ = m ((c.tc : Thread nD τ).loc main_arg0) := rfl

/-- Argument 8 at the first call's entry is as launched: no operation before the call writes it. -/
theorem W5_arg8 (c : Dev nD) : W5 m ρ c (Proc.devRef .tc main_arg8) = m ((c.tc : Thread nD τ).loc main_arg8) :=
  calc W5 m ρ c (Proc.devRef .tc main_arg8)
    _ = W4 m ρ c (Proc.devRef .tc main_arg8) := by carry_through hostOps0_4
    _ = W3 m ρ c (Proc.devRef .tc main_arg8) := by carry_through hostOps0_3
    _ = W2 m ρ c (Proc.devRef .tc main_arg8) := by carry_through hostOps0_2
    _ = W1 m ρ c (Proc.devRef .tc main_arg8) := by carry_through hostOps0_1
    _ = W0 m ρ c (Proc.devRef .tc main_arg8) := by carry_through hostOps0
    _ = m ((c.tc : Thread nD τ).loc main_arg8) := rfl

/-- Argument 6 at the first call's entry is as launched: no operation before the call writes it. -/
theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := by carry_through hostOps0_4
    _ = W3 m ρ c (Proc.devRef .tc main_arg6) := by carry_through hostOps0_3
    _ = W2 m ρ c (Proc.devRef .tc main_arg6) := by carry_through hostOps0_2
    _ = W1 m ρ c (Proc.devRef .tc main_arg6) := by carry_through hostOps0_1
    _ = W0 m ρ c (Proc.devRef .tc main_arg6) := by carry_through hostOps0
    _ = m ((c.tc : Thread nD τ).loc main_arg6) := rfl

/-- Argument 9 at the first call's entry is as launched: no operation before the call writes it. -/
theorem W5_arg9 (c : Dev nD) : W5 m ρ c (Proc.devRef .tc main_arg9) = m ((c.tc : Thread nD τ).loc main_arg9) :=
  calc W5 m ρ c (Proc.devRef .tc main_arg9)
    _ = W4 m ρ c (Proc.devRef .tc main_arg9) := by carry_through hostOps0_4
    _ = W3 m ρ c (Proc.devRef .tc main_arg9) := by carry_through hostOps0_3
    _ = W2 m ρ c (Proc.devRef .tc main_arg9) := by carry_through hostOps0_2
    _ = W1 m ρ c (Proc.devRef .tc main_arg9) := by carry_through hostOps0_1
    _ = W0 m ρ c (Proc.devRef .tc main_arg9) := by carry_through hostOps0
    _ = m ((c.tc : Thread nD τ).loc main_arg9) := rfl

/-- Argument 1 at the first call's entry is as launched: no operation before the call writes it. -/
theorem W5_arg1 (c : Dev nD) : W5 m ρ c (Proc.devRef .tc main_arg1) = m ((c.tc : Thread nD τ).loc main_arg1) :=
  calc W5 m ρ c (Proc.devRef .tc main_arg1)
    _ = W4 m ρ c (Proc.devRef .tc main_arg1) := by carry_through hostOps0_4
    _ = W3 m ρ c (Proc.devRef .tc main_arg1) := by carry_through hostOps0_3
    _ = W2 m ρ c (Proc.devRef .tc main_arg1) := by carry_through hostOps0_2
    _ = W1 m ρ c (Proc.devRef .tc main_arg1) := by carry_through hostOps0_1
    _ = W0 m ρ c (Proc.devRef .tc main_arg1) := by carry_through hostOps0
    _ = m ((c.tc : Thread nD τ).loc main_arg1) := rfl

/-- Argument 7 at the first call's entry is as launched: no operation before the call writes it. -/
theorem W5_arg7 (c : Dev nD) : W5 m ρ c (Proc.devRef .tc main_arg7) = m ((c.tc : Thread nD τ).loc main_arg7) :=
  calc W5 m ρ c (Proc.devRef .tc main_arg7)
    _ = W4 m ρ c (Proc.devRef .tc main_arg7) := by carry_through hostOps0_4
    _ = W3 m ρ c (Proc.devRef .tc main_arg7) := by carry_through hostOps0_3
    _ = W2 m ρ c (Proc.devRef .tc main_arg7) := by carry_through hostOps0_2
    _ = W1 m ρ c (Proc.devRef .tc main_arg7) := by carry_through hostOps0_1
    _ = W0 m ρ c (Proc.devRef .tc main_arg7) := by carry_through hostOps0
    _ = m ((c.tc : Thread nD τ).loc main_arg7) := rfl

/-- Argument 0 at the second call's entry is as launched. -/
theorem V7_arg0 (c : Dev nD) : V7 m ρ c main_arg0 = m ((c.tc : Thread nD τ).loc main_arg0) :=
  calc W7 m ρ c (Proc.devRef .tc main_arg0)
    _ = W6 m ρ c (Proc.devRef .tc main_arg0) := by carry_through hostOps1
    _ = W5 m ρ c (Proc.devRef .tc main_arg0) := W6_of_ne m ρ c main_arg0 (by decide)
    _ = m ((c.tc : Thread nD τ).loc main_arg0) := W5_arg0 m ρ c

/-- Argument 8 at the second call's entry is as launched. -/
theorem V7_arg8 (c : Dev nD) : V7 m ρ c main_arg8 = m ((c.tc : Thread nD τ).loc main_arg8) :=
  calc W7 m ρ c (Proc.devRef .tc main_arg8)
    _ = W6 m ρ c (Proc.devRef .tc main_arg8) := by carry_through hostOps1
    _ = W5 m ρ c (Proc.devRef .tc main_arg8) := W6_of_ne m ρ c main_arg8 (by decide)
    _ = m ((c.tc : Thread nD τ).loc main_arg8) := W5_arg8 m ρ c

/-- Argument 6 at the second call's entry is as launched. -/
theorem V7_arg6 (c : Dev nD) : V7 m ρ c main_arg6 = m ((c.tc : Thread nD τ).loc main_arg6) :=
  calc W7 m ρ c (Proc.devRef .tc main_arg6)
    _ = W6 m ρ c (Proc.devRef .tc main_arg6) := by carry_through hostOps1
    _ = W5 m ρ c (Proc.devRef .tc main_arg6) := W6_of_ne m ρ c main_arg6 (by decide)
    _ = m ((c.tc : Thread nD τ).loc main_arg6) := W5_arg6 m ρ c

/-- Argument 1 at the second call's exit is as launched. -/
theorem W8_arg1 (c : Dev nD) : W8 m ρ c (Proc.devRef .tc main_arg1) = m ((c.tc : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by carry_through hostOps1
    _ = W5 m ρ c (Proc.devRef .tc main_arg1) := W6_of_ne m ρ c main_arg1 (by decide)
    _ = m ((c.tc : Thread nD τ).loc main_arg1) := W5_arg1 m ρ c

/-- Argument 7 at the second call's exit is as launched. -/
theorem W8_arg7 (c : Dev nD) : W8 m ρ c (Proc.devRef .tc main_arg7) = m ((c.tc : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by carry_through hostOps1
    _ = W5 m ρ c (Proc.devRef .tc main_arg7) := W6_of_ne m ρ c main_arg7 (by decide)
    _ = m ((c.tc : Thread nD τ).loc main_arg7) := W5_arg7 m ρ c

/-! ## The buffers the host writes around the calls -/

/-- Row 0 of the edge index, written before the first call, is still there at its exit. -/
theorem W6_v1 (c : Dev nD) :
    W6 m ρ c (Proc.devRef .tc main_v1) = rowOf (m ((c.tc : Thread nD τ).loc main_arg2)) :=
  calc W6 m ρ c (Proc.devRef .tc main_v1)
    _ = W5 m ρ c (Proc.devRef .tc main_v1) := W6_of_ne m ρ c main_v1 (by decide)
    _ = W4 m ρ c (Proc.devRef .tc main_v1) := by carry_through hostOps0_4
    _ = W3 m ρ c (Proc.devRef .tc main_v1) := by carry_through hostOps0_3
    _ = W2 m ρ c (Proc.devRef .tc main_v1) := by carry_through hostOps0_2
    _ = W1 m ρ c (Proc.devRef .tc main_v1) := by carry_through hostOps0_1
    _ = rowOf (m ((c.tc : Thread nD τ).loc main_arg2)) := by
      show StableHlo.after hostOps0 (W0 m ρ c) (Proc.devRef .tc main_v1) = _
      after_results
      rfl

/-- The bias as a row, at the second call's entry. -/
theorem V7_v97 (c : Dev nD) : V7 m ρ c main_v97 = b2Of (m ((c.tc : Thread nD τ).loc main_arg9)) := by
  show StableHlo.after hostOps1 (W6 m ρ c) (Proc.devRef .tc main_v97) = _
  after_results
  rw [W6_of_ne m ρ c main_arg9 (by decide), W5_arg9]
  rfl

set_option maxHeartbeats 4000000 in
/-- The accumulator at the second call's entry: the first call's output scatter-added at the destination rows. -/
theorem V7_v96 (c : Dev nD) :
    V7 m ρ c main_v96 = accOf (m ((c.tc : Thread nD τ).loc main_arg2)) ((dat0 (V5 m ρ) c).arrAt 5 cfg0.N) := by
  show StableHlo.after hostOps1 (W6 m ρ c) (Proc.devRef .tc main_v96) = _
  after_results
  have h87 : W6 m ρ c (Proc.devRef .tc main_v87) = (dat0 (V5 m ρ) c).arrAt 5 cfg0.N := W6_arr m ρ c 5
  rw [h87, W6_v1]
  rfl

/-- The second call's output at the return: what its write-backs leave. -/
theorem W9_v98 (c : Dev nD) : W9 m ρ c (Proc.devRef .tc main_v98) = (dat1 (V7 m ρ) c).arrAt 5 cfg1.N :=
  calc W9 m ρ c (Proc.devRef .tc main_v98)
    _ = W8 m ρ c (Proc.devRef .tc main_v98) := by carry_through hostOps2
    _ = (dat1 (V7 m ρ) c).arrAt 5 cfg1.N := W8_arr m ρ c 5

/-- The last product at the return: the relation table times its weight matrix, both as launched. -/
theorem W9_v99 (c : Dev nD) :
    W9 m ρ c (Proc.devRef .tc main_v99) = Host.dotGeneral dot_S400x128_S128x128_S400x128_1_0_0_1_n_n none
      (m ((c.tc : Thread nD τ).loc main_arg1)) (m ((c.tc : Thread nD τ).loc main_arg7)) := by
  show StableHlo.after hostOps2 (W8 m ρ c) (Proc.devRef .tc main_v99) = _
  after_results
  rw [W8_arg1, W8_arg7]

end Cert.KernelIdeal.Host2

end
-- ==== Proof.KernelTermsRead.lean ====
/-
  The arrays the kernel program's host operations build, read at an index, at the exact extended reals.

  Each array of `KernelTerms` is a chain of layout operations (a slice, a reshape, a broadcast along a new axis, a
  concatenation), a wrapped index word, a gather of whole rows or a scatter-add of whole rows.  Read one operation at a
  time at explicit coordinates, each equals the index-level array of `Spec`:
    hjOf x ei (e, k)     = x (srcRow ei e, k)
    et2Of et (e, 0)      = et e
    nm2Of a b (e, 0)     = a e for e < 400000, b (e - 400000) otherwise
    rfOf r lr (q, k)     = r (q, k) for q < 400, lr (0, k) for q = 400
    wsOf win wout (p, k, d) = win (k, d) for p = 0, wout (k, d) for p = 1
    accOf ei msg (i, k)  = 0 + ∑ e, msg (e, k) over the edges whose wrapped destination word is i
    b2Of bias (0, k)     = bias k
-/
import proofs.«404528_j34351148433957_3_alg».proof.Proof.KernelTerms
import proofs.«404528_j34351148433957_3_alg».proof.Proof.Spec
import Idealize.ShloMosaic.Lib.Pipeline.Value
import Idealize.ShloMosaic.Lib.ValueIdx
import Idealize.ShloMosaic.Lib.ValueLayout

noncomputable section

namespace Cert.KernelIdeal.HostRead

open Cert.KernelIdeal Cert.KernelIdeal.Gen Cert.KernelIdeal.Host Idealize.ShloMosaic Idealize.ShloMosaic.ValueIdx

/-- Row 0 of the edge index at edge `e`. -/
theorem rowOf_apply (ei : IVec S2x800000 32) (e : Fin 800000) : rowOf ei (ix1 e) = ei (ix2 0 e) := by
  unfold rowOf
  refine (shapeCast_1a_a_apply _ _ e).trans ?_
  exact slice2_axis0_apply 0 ei _ (0 : Fin 1) e (0 : Fin 2) rfl

/-- Row 1 of the edge index at edge `e`. -/
theorem colOf_apply (ei : IVec S2x800000 32) (e : Fin 800000) : colOf ei (ix1 e) = ei (ix2 1 e) := by
  unfold colOf
  refine (shapeCast_1a_a_apply _ _ e).trans ?_
  exact slice2_axis0_apply 1 ei _ (0 : Fin 1) e (1 : Fin 2) rfl

/-- The wrapped vector at edge `e` is the wrapped word. -/
theorem wrapV_apply (v : IVec S800000 32) (e : Fin 800000) :
    wrapV v (ix1 e) = Cert.Spec.wrapW 100000#32 (v (ix1 e)) := rfl

/-- A vector laid as a column reads its entry at the row. -/
theorem col_apply {α : Type} (v : S800000.Idx → α) (e : Fin 800000) (u : Fin 1) :
    broadcastInDim S800000x1 ![0] bcast_S800000_S800000x1_0 v (ix2 e u) = v (ix1 e) := by
  refine broadcastInDim_apply _ _ v (ix2 e u) (ix1 e) fun a => ?_
  match a with
  | ⟨0, _⟩ => rfl

/-- The gathered rows at `(e, k)`: the table at edge `e`'s source row, column `k`. -/
theorem hjOf_apply (x : FVec Ideal S100000x128 .f32) (ei : IVec S2x800000 32) (e : Fin 800000) (k : Fin 128) :
    hjOf (F := Ideal) x ei (ix2 e k) = x (ix2 (Cert.Spec.srcRow ei e) k) := by
  unfold hjOf
  rw [truncf_apply, Cert.LibRows.gather_rows_apply _ rfl rfl rfl rfl rfl rfl rfl (by decide), col_apply, wrapV_apply,
    colOf_apply]
  rfl

/-- The edge types as a column at row `e`: the type of edge `e`. -/
theorem et2Of_apply (et : IVec S800000 32) (e : Fin 800000) (u : Fin 1) : et2Of et (ix2 e u) = et (ix1 e) := by
  unfold et2Of
  refine shapeCast_apply et _ (ix2 e u) (ix1 e) ?_
  rw [Shape.rowMajor_val_two, Shape.rowMajor_val_one]
  show e.val = e.val * 1 + u.val
  omega

/-- The bias as a row at column `k`: the bias at `k`. -/
theorem b2Of_apply (bias : FVec Ideal S128 .f32) (u : Fin 1) (k : Fin 128) :
    b2Of (F := Ideal) bias (ix2 u k) = bias (ix1 k) := by
  unfold b2Of
  exact shapeCast_a_1a_apply bias _ u k

/-- The joined normalisations at an edge of the first half. -/
theorem nmCat_apply_lo (a b : FVec Ideal S400000 .f32) (e : Fin 800000) (h : e.val < 400000) :
    concatenate S800000 0 [⟨S400000, a⟩, ⟨S400000, b⟩] concatenates_S400000_S400000_S800000_d0 (ix1 e)
      = a (ix1 ⟨e.val, h⟩) := by
  refine concatenate_pair_apply_left (0 : Fin 1) a b _ (ix1 e) rfl (ix1 ⟨e.val, h⟩) fun c => ?_
  match c with
  | ⟨0, _⟩ => rfl

/-- The joined normalisations at an edge of the second half. -/
theorem nmCat_apply_hi (a b : FVec Ideal S400000 .f32) (e : Fin 800000) (h : ¬ e.val < 400000) :
    concatenate S800000 0 [⟨S400000, a⟩, ⟨S400000, b⟩] concatenates_S400000_S400000_S800000_d0 (ix1 e)
      = b (ix1 ⟨e.val - 400000, by have := e.isLt; omega⟩) := by
  refine concatenate_pair_apply_right (0 : Fin 1) a b _ (ix1 e) rfl rfl
    (ix1 ⟨e.val - 400000, by have := e.isLt; omega⟩) (fun c hc => ?_) ?_
  · match c with
    | ⟨0, _⟩ => exact absurd rfl hc
  · show e.val - 400000 + 400000 = e.val
    omega

/-- The normalisation column at row `e`: the first array at `e` below 400000, the second at `e - 400000` from
    there on. -/
theorem nm2Of_apply (a b : FVec Ideal S400000 .f32) (e : Fin 800000) (u : Fin 1) :
    nm2Of (F := Ideal) a b (ix2 e u) = if h : e.val < 400000 then a (ix1 ⟨e.val, h⟩)
      else b (ix1 ⟨e.val - 400000, by have := e.isLt; omega⟩) := by
  unfold nm2Of
  have hc : ∀ v : FVec Ideal S800000 .f32,
      shapeCast S800000x1 v shapeCasts_S800000_S800000x1 (ix2 e u) = v (ix1 e) := by
    intro v
    refine shapeCast_apply v _ (ix2 e u) (ix1 e) ?_
    rw [Shape.rowMajor_val_two, Shape.rowMajor_val_one]
    show e.val = e.val * 1 + u.val
    omega
  rw [hc]
  split
  · next h => exact nmCat_apply_lo a b e h
  · next h => exact nmCat_apply_hi a b e h

/-- The relation table with the loop relation appended, at `(q, k)`: `Spec.rfull`. -/
theorem rfOf_apply (r : FVec Ideal S400x128 .f32) (lr : FVec Ideal S1x128 .f32) (q : Fin 401) (k : Fin 128) :
    rfOf (F := Ideal) r lr (ix2 q k) = Cert.Spec.rfull r lr q k := by
  unfold rfOf Cert.Spec.rfull
  split
  · next h =>
    refine concatenate_pair_apply_left (0 : Fin 2) r lr _ (ix2 q k) rfl (ix2 ⟨q.val, h⟩ k) fun c => ?_
    match c with
    | ⟨0, _⟩ => rfl
    | ⟨1, _⟩ => rfl
  · next h =>
    refine concatenate_pair_apply_right (0 : Fin 2) r lr _ (ix2 q k) rfl rfl (ix2 0 k) (fun c hc => ?_) ?_
    · match c with
      | ⟨0, _⟩ => exact absurd rfl hc
      | ⟨1, _⟩ => rfl
    · show 0 + 400 = q.val
      have := q.isLt
      omega

/-- A weight matrix given a leading unit axis reads its entry. -/
theorem lead_apply (w : FVec Ideal S128x128 .f32) (u : Fin 1) (k d : Fin 128) :
    broadcastInDim S1x128x128 ![1, 2] bcast_S128x128_S1x128x128_1_2 w (ix3 u k d) = w (ix2 k d) := by
  refine broadcastInDim_apply _ _ w (ix3 u k d) (ix2 k d) fun a => ?_
  match a with
  | ⟨0, _⟩ => rfl
  | ⟨1, _⟩ => rfl

/-- The stacked weight matrices at `(p, k, d)`: the first matrix for `p = 0`, the second otherwise. -/
theorem wsOf_apply (win wout : FVec Ideal S128x128 .f32) (p : Fin 2) (k d : Fin 128) :
    wsOf (F := Ideal) win wout (ix3 p k d) = if p.val = 0 then win (ix2 k d) else wout (ix2 k d) := by
  unfold wsOf
  split
  · next h =>
    refine (concatenate_pair_apply_left (s₁ := S1x128x128) (s₂ := S1x128x128) (0 : Fin 3) _ _ _ (ix3 p k d) rfl
      (ix3 (0 : Fin 1) k d) fun c => ?_).trans (lead_apply win 0 k d)
    match c with
    | ⟨0, _⟩ => exact h.symm
    | ⟨1, _⟩ => rfl
    | ⟨2, _⟩ => rfl
  · next h =>
    refine (concatenate_pair_apply_right (s₁ := S1x128x128) (s₂ := S1x128x128) (0 : Fin 3) _ _ _ (ix3 p k d) rfl rfl
      (ix3 (0 : Fin 1) k d) (fun c hc => ?_) ?_).trans (lead_apply wout 0 k d)
    · match c with
      | ⟨0, _⟩ => exact absurd rfl hc
      | ⟨1, _⟩ => rfl
      | ⟨2, _⟩ => rfl
    · show 0 + 1 = p.val
      have := p.isLt
      omega

/-- The scatter-added table at `(i, k)`: zero plus the messages of the edges whose wrapped destination word is `i`. -/
theorem accOf_apply (ei : IVec S2x800000 32) (msg : FVec Ideal S800000x128 .bf16) (i : Fin 100000) (k : Fin 128) :
    accOf (F := Ideal) ei msg (ix2 i k)
      = 0 + ∑ e : Fin 800000, if (Cert.Spec.dstW ei e).toInt = (i.val : Int) then msg (ix2 e k) else 0 := by
  unfold accOf
  rw [Cert.LibRows.scatterAdd_rows_apply _ rfl rfl rfl rfl]
  refine congrArg₂ (· + ·) ?_ ?_
  · show Ideal.ofBits .f32 0x00000000#32 = 0
    exact Ideal.ofBits_zero_f32
  · refine Finset.sum_congr rfl fun e _ => ?_
    rw [col_apply, wrapV_apply, rowOf_apply]
    rfl

/-! ## The arrays whole -/

/-- The gathered rows are `Spec.kHj`. -/
theorem hjOf_eq (x : FVec Ideal S100000x128 .f32) (ei : IVec S2x800000 32) :
    hjOf (F := Ideal) x ei = Cert.Spec.kHj x ei := by
  funext j
  obtain ⟨e, k, rfl⟩ : ∃ (e : Fin 800000) (k : Fin 128), j = ix2 e k := ⟨j 0, j 1, eq_ix2 j⟩
  exact hjOf_apply x ei e k

/-- The edge types as a column are `Spec.kEt`. -/
theorem et2Of_eq (et : IVec S800000 32) : et2Of et = Cert.Spec.kEt et := by
  funext j
  obtain ⟨e, u, rfl⟩ : ∃ (e : Fin 800000) (u : Fin 1), j = ix2 e u := ⟨j 0, j 1, eq_ix2 j⟩
  exact et2Of_apply et e u

/-- The normalisation column is `Spec.kNm`. -/
theorem nm2Of_eq (a b : FVec Ideal S400000 .f32) : nm2Of (F := Ideal) a b = Cert.Spec.kNm a b := by
  funext j
  obtain ⟨e, u, rfl⟩ : ∃ (e : Fin 800000) (u : Fin 1), j = ix2 e u := ⟨j 0, j 1, eq_ix2 j⟩
  exact nm2Of_apply a b e u

/-- The relation table with the loop relation appended is `Spec.kRf`. -/
theorem rfOf_eq (r : FVec Ideal S400x128 .f32) (lr : FVec Ideal S1x128 .f32) :
    rfOf (F := Ideal) r lr = Cert.Spec.kRf r lr := by
  funext j
  obtain ⟨q, k, rfl⟩ : ∃ (q : Fin 401) (k : Fin 128), j = ix2 q k := ⟨j 0, j 1, eq_ix2 j⟩
  exact rfOf_apply r lr q k

/-- The stacked weight matrices are `Spec.kWs`. -/
theorem wsOf_eq (win wout : FVec Ideal S128x128 .f32) : wsOf (F := Ideal) win wout = Cert.Spec.kWs win wout := by
  funext j
  obtain ⟨p, k, d, rfl⟩ : ∃ (p : Fin 2) (k d : Fin 128), j = ix3 p k d := ⟨j 0, j 1, j 2, eq_ix3 j⟩
  exact wsOf_apply win wout p k d

/-- The scatter-added table is `Spec.kAcc`. -/
theorem accOf_eq (ei : IVec S2x800000 32) (msg : FVec Ideal S800000x128 .bf16) :
    accOf (F := Ideal) ei msg = Cert.Spec.kAcc ei msg := by
  funext j
  obtain ⟨i, k, rfl⟩ : ∃ (i : Fin 100000) (k : Fin 128), j = ix2 i k := ⟨j 0, j 1, eq_ix2 j⟩
  exact accOf_apply ei msg i k

/-- The bias as a row is `Spec.kB`. -/
theorem b2Of_eq (bias : FVec Ideal S128 .f32) : b2Of (F := Ideal) bias = Cert.Spec.kB bias := by
  funext j
  obtain ⟨u, k, rfl⟩ : ∃ (u : Fin 1) (k : Fin 128), j = ix2 u k := ⟨j 0, j 1, eq_ix2 j⟩
  exact b2Of_apply bias u k

end Cert.KernelIdeal.HostRead

end
-- ==== Proof.KernelValue.lean ====
/-
  The kernel program's first result, as one function of the argument arrays.

  The result buffer holds what the second call leaves: the combination (Spec.combine) of x, the loop relation, the loop
  weight, the accumulator and the bias row, as the call finds them.  The accumulator is the scatter-add, at each edge's
  destination, of what the first call leaves: the edge messages (Spec.edgeMsg) of the gathered source rows, the edge
  types, the joined normalisations, the relation table and the stacked weights.  Each of those host-built arrays, read at
  an index on the raw arguments, is the array Spec names for it; so the result at entity `i`, feature `d` is
  `Spec.kerOut … i d`.
-/
import proofs.«404528_j34351148433957_3_alg».proof.Proof.Gen.KernelIdeal.Frame
import proofs.«404528_j34351148433957_3_alg».proof.Proof.Spec
import proofs.«404528_j34351148433957_3_alg».proof.Proof.EdgeValue
import proofs.«404528_j34351148433957_3_alg».proof.Proof.CombineValue
import proofs.«404528_j34351148433957_3_alg».proof.Proof.KernelHost
import proofs.«404528_j34351148433957_3_alg».proof.Proof.KernelHost2
import proofs.«404528_j34351148433957_3_alg».proof.Proof.KernelTermsRead

noncomputable section

namespace Cert.KernelIdeal.Value

open Cert.KernelIdeal Cert.KernelIdeal.Gen Idealize.ShloMosaic Idealize.ShloMosaic.ValueIdx

variable (m : (ℓ : Loc nD τ sig) → Buf (Elt Ideal) ℓ) (ρ : Dev nD → PrngReg)

/-- The first result after the run: at every index the kernel's value on the raw arguments. -/
theorem result0 (c : Dev nD) :
    W9 (F := Ideal) m ρ c (Proc.devRef .tc main_v98)
      = fun j : S100000x128.Idx =>
          Cert.Spec.kerOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg8))
            (m ((c.tc : Thread nD τ).loc main_arg9))
            (Cert.KernelIdeal.Host.normIn (F := Ideal) (m ((c.tc : Thread nD τ).loc main_arg2)))
            (Cert.KernelIdeal.Host.normOut (F := Ideal) (m ((c.tc : Thread nD τ).loc main_arg2)))
            ⟨(j 0).val, idx2_lt0 j⟩ ⟨(j 1).val, idx2_lt1 j⟩ := by
  rw [Cert.KernelIdeal.Host2.W9_v98, Cert.KernelIdeal.CombineValue.final,
    Cert.KernelIdeal.Host2.V7_arg0, Cert.KernelIdeal.Host2.V7_arg8, Cert.KernelIdeal.Host2.V7_arg6,
    Cert.KernelIdeal.Host2.V7_v96, Cert.KernelIdeal.Host2.V7_v97, Cert.KernelIdeal.EdgeValue.final,
    Cert.KernelIdeal.Host.V5_v80, Cert.KernelIdeal.Host.V5_v85, Cert.KernelIdeal.Host.V5_v86,
    Cert.KernelIdeal.Host.V5_v84, Cert.KernelIdeal.Host.V5_v83,
    Cert.KernelIdeal.HostRead.hjOf_eq, Cert.KernelIdeal.HostRead.et2Of_eq, Cert.KernelIdeal.HostRead.nm2Of_eq,
    Cert.KernelIdeal.HostRead.rfOf_eq, Cert.KernelIdeal.HostRead.wsOf_eq, Cert.KernelIdeal.HostRead.accOf_eq,
    Cert.KernelIdeal.HostRead.b2Of_eq]
  rfl

end Cert.KernelIdeal.Value

end
-- ==== Proof.RefRead.lean ====
/-
  The reference program's first result, read entry by entry on whole arrays of extended reals.

  The result is `tanh ((A_in + A_out + A_loop) * c + b)`, `c` the word 0x3EAAAAAB, where each `A` is a table of
  100000 rows of 128 features obtained by adding rows into a zero table at index words:
  * `A_in`: for each of the first 400000 edges `e`, the row `((x[src e] - rfull[rel e]) @ win) * nmIn e` added at the
    edge's destination word; `A_out` the same for the last 400000 edges with `wout` and `nmOut`;
  * `A_loop`: for each entity `n`, the row `(x[n] - rfull[400]) @ wl` added at the word `n`.
  Every index word is first wrapped into its axis (a negative word gets the extent added); a gathered row is read at the
  word clamped into the table, an added row lands only where its word is a row number of the table. `rfull` is the
  relation table with the loop relation appended as row 400. The two normalisations `nmIn`, `nmOut` depend on the edge
  index alone (one over the square root of the destination's in-degree, at the destination and at the source, multiplied)
  and are kept as the functions `normIn`, `normOut` below.

  The file names the pieces of the composed term, for every float instance, reads each piece at an index at the exact
  extended reals, and concludes `res_apply`: the result at `(i, d)` is `Cert.Spec.refOut … i d`.
-/
import proofs.«404528_j34351148433957_3_alg».proof.Proof.RefRun
import proofs.«404528_j34351148433957_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.ValueP Idealize.ShloMosaic Idealize.ShloMosaic.ValueIdx

/-! ## The reference's first result as a composition of named pieces, for every float instance -/

section Pieces
variable {F : FTy → Type} [FloatOps F]

/-- Index words of 400000 edges wrapped into an axis of extent `n` (a negative word gets `n` added), as a column. -/
def wrapCol4 (n : BitVec 32) (t : IVec S400000 32) : IVec S400000x1 32 :=
  broadcastInDim S400000x1 ![0] bcast_S400000_S400000x1_0
    (select (cmpi .slt t (broadcastInDim S400000 ![] bcast_S_S400000 (constantI S_ 32 0#32)))
      (addi t (broadcastInDim S400000 ![] bcast_S_S400000 (constantI S_ 32 n))) t)

/-- The same for 100000 index words. -/
def wrapCol1 (n : BitVec 32) (t : IVec S100000 32) : IVec S100000x1 32 :=
  broadcastInDim S100000x1 ![0] bcast_S100000_S100000x1_0
    (select (cmpi .slt t (broadcastInDim S100000 ![] bcast_S_S100000 (constantI S_ 32 0#32)))
      (addi t (broadcastInDim S100000 ![] bcast_S_S100000 (constantI S_ 32 n))) t)

/-- Row 0 of the edge index (the destinations), as a flat vector. -/
def eiRow0 (ei : IVec S2x800000 32) : IVec S800000 32 :=
  shapeCast _ (extractStridedSlice S1x800000 ![0, 0] ei slices_S2x800000_S1x800000_0_0) shapeCasts_S1x800000_S800000
/-- Row 1 of the edge index (the sources), as a flat vector. -/
def eiRow1 (ei : IVec S2x800000 32) : IVec S800000 32 :=
  shapeCast _ (extractStridedSlice S1x800000 ![1, 0] ei slices_S2x800000_S1x800000_1_0) shapeCasts_S1x800000_S800000
/-- The first 400000 entries of a vector over the edges. -/
def lo (v : IVec S800000 32) : IVec S400000 32 := extractStridedSlice S400000 ![0] v slices_S800000_S400000_0
/-- The last 400000 entries of a vector over the edges. -/
def hi (v : IVec S800000 32) : IVec S400000 32 := extractStridedSlice S400000 ![400000] v slices_S800000_S400000_400000

/-- The relation table with the loop relation's row appended. -/
def rtab (r : FVec F S400x128 .f32) (lr : FVec F S1x128 .f32) : FVec F S401x128 .f32 :=
  concatenate S401x128 0 [⟨S400x128, r⟩, ⟨S1x128, lr⟩] concatenates_S400x128_S1x128_S401x128_d0

/-- The zero table every accumulator starts from. -/
def zeroTab : FVec F S100000x128 .f32 :=
  broadcastInDim S100000x128 ![] bcast_S_S100000x128 (constant S_ .f32 0x00000000#32)

/-- The un-normalised messages of 400000 edges with source words `src`, type words `typ` and weight matrix `w`:
    `(x[src] - rtab[typ]) @ w`. -/
def msgOf (x : FVec F S100000x128 .f32) (r : FVec F S400x128 .f32) (lr : FVec F S1x128 .f32)
    (src typ : IVec S400000 32) (w : FVec F S128x128 .f32) : FVec F S400000x128 .f32 :=
  Host.dotGeneral dot_S400000x128_S128x128_S400000x128_1_0_0_1_n_n none
    (subf (Host.gather gather_S100000x128_S400000x1_S400000x128_1_0_n_n_0_1_1128 x (wrapCol4 100000#32 src))
      (Host.gather gather_S401x128_S400000x1_S400000x128_1_0_n_n_0_1_1128 (rtab r lr) (wrapCol4 401#32 typ))) w

/-- A per-edge factor spread along the feature axis. -/
def alongFeat (nm : FVec F S400000 .f32) : FVec F S400000x128 .f32 :=
  broadcastInDim S400000x128 ![0, 1] bcast_S400000x1_S400000x128_0_1
    (broadcastInDim S400000x1 ![0] bcast_S400000_S400000x1_0 nm)

/-- The rows `upd` of 400000 edges scatter-added into the zero table at the (wrapped) destination words `dst`. -/
def saOf (dst : IVec S400000 32) (upd : FVec F S400000x128 .f32) : FVec F S100000x128 .f32 :=
  Host.scatterAdd scatter_S100000x128_S400000x1_S400000x128_1_0_0_1 zeroTab (wrapCol4 100000#32 dst) upd

/-- The number of edges (of 400000) arriving at each entity. -/
def degOf (dst : IVec S400000 32) : FVec F S100000 .f32 :=
  Host.scatterAdd scatter_S100000_S400000x1_S400000_n_0_0_1
    (broadcastInDim S100000 ![] bcast_S_S100000 (constant S_ .f32 0x00000000#32)) (wrapCol4 100000#32 dst)
    (broadcastInDim S400000 ![] bcast_S_S400000 (constant S_ .f32 0x3F800000#32))

/-- One over the square root of the degree where the degree is positive, zero elsewhere. -/
def invSqrtDeg (dst : IVec S400000 32) : FVec F S100000 .f32 :=
  select (cmpf (F := F) .ogt (degOf dst) (broadcastInDim S100000 ![] bcast_S_S100000 (constant S_ .f32 0x00000000#32)))
    (Host.divf (broadcastInDim S100000 ![] bcast_S_S100000 (constant S_ .f32 0x3F800000#32))
      (Host.sqrt (maximumf (degOf dst) (broadcastInDim S100000 ![] bcast_S_S100000 (constant S_ .f32 0x3F800000#32)))))
    (broadcastInDim S100000 ![] bcast_S_S100000 (id (constant S_ .f32 0x00000000#32)))

/-- The normalisation of 400000 edges: the factor of the destination times the factor of the source. -/
def normOf (dst src : IVec S400000 32) : FVec F S400000 .f32 :=
  mulf (Host.gather gather_S100000_S400000x1_S400000_n_0_n_n_0_1_1 (invSqrtDeg dst) (wrapCol4 100000#32 dst))
    (Host.gather gather_S100000_S400000x1_S400000_n_0_n_n_0_1_1 (invSqrtDeg dst) (wrapCol4 100000#32 src))

/-- The first half's normalisation as the reference computes it, a function of the edge index alone. -/
def normIn (ei : IVec S2x800000 32) : FVec F S400000 .f32 := normOf (lo (eiRow0 ei)) (lo (eiRow1 ei))
/-- The second half's normalisation as the reference computes it, a function of the edge index alone. -/
def normOut (ei : IVec S2x800000 32) : FVec F S400000 .f32 := normOf (hi (eiRow0 ei)) (hi (eiRow1 ei))

/-- The entity numbers `0, 1, …` as index words. -/
def entW : IVec S100000 32 := iotaInDim S100000 32 0
/-- The word 400 for every entity: the loop relation's row number. -/
def loopTyp : IVec S100000 32 := broadcastInDim S100000 ![] bcast_S_S100000 (constantI S_ 32 400#32)

/-- The self-loop accumulator: `(x[n] - rtab[400]) @ wl` scatter-added at `n`. -/
def saLoop (x : FVec F S100000x128 .f32) (r : FVec F S400x128 .f32) (lr : FVec F S1x128 .f32)
    (wl : FVec F S128x128 .f32) : FVec F S100000x128 .f32 :=
  Host.scatterAdd scatter_S100000x128_S100000x1_S100000x128_1_0_0_1 zeroTab (wrapCol1 100000#32 entW)
    (Host.dotGeneral dot_S100000x128_S128x128_S100000x128_1_0_0_1_n_n none
      (subf (Host.gather gather_S100000x128_S100000x1_S100000x128_1_0_n_n_0_1_1128 x (wrapCol1 100000#32 entW))
        (Host.gather gather_S401x128_S100000x1_S100000x128_1_0_n_n_0_1_1128 (rtab r lr) (wrapCol1 401#32 loopTyp))) wl)

/-- The reference's first result: the three accumulators summed, scaled by a third, biased, `tanh`. -/
def refTerm (x : FVec F S100000x128 .f32) (r : FVec F S400x128 .f32) (ei : IVec S2x800000 32) (et : IVec S800000 32)
    (win wout wl : FVec F S128x128 .f32) (lr : FVec F S1x128 .f32) (bias : FVec F S128 .f32) : FVec F S100000x128 .f32 :=
  Host.tanh (addf (mulf (addf (addf
      (saOf (lo (eiRow0 ei)) (mulf (msgOf x r lr (lo (eiRow1 ei)) (lo et) win) (alongFeat (normIn ei))))
      (saOf (hi (eiRow0 ei)) (mulf (msgOf x r lr (hi (eiRow1 ei)) (hi et) wout) (alongFeat (normOut ei)))))
      (saLoop x r lr wl))
    (broadcastInDim S100000x128 ![] bcast_S_S100000x128 (constant S_ .f32 0x3EAAAAAB#32)))
    (broadcastInDim S100000x128 ![0, 1] bcast_S1x128_S100000x128_0_1 (broadcastInDim S1x128 ![1] bcast_S128_S1x128_1 bias)))

end Pieces

/-! ## The pieces read at an index, at the exact extended reals -/

/-- A wrapped index column read at row `e`: the wrapped word. -/
theorem wrapCol4_apply (n : BitVec 32) (t : IVec S400000 32) (e : Fin 400000) :
    wrapCol4 n t (ix2 e 0) = Cert.Spec.wrapW n (t (ix1 e)) := by
  unfold wrapCol4
  refine (broadcastInDim_apply _ bcast_S400000_S400000x1_0 _ (ix2 e 0) (ix1 e) (fun a => match a with
    | ⟨0, _⟩ => by show e.val = if (400000 : Nat) = 1 then 0 else e.val; rw [if_neg (by decide)])).trans ?_
  rfl

theorem wrapCol1_apply (n : BitVec 32) (t : IVec S100000 32) (e : Fin 100000) :
    wrapCol1 n t (ix2 e 0) = Cert.Spec.wrapW n (t (ix1 e)) := by
  unfold wrapCol1
  refine (broadcastInDim_apply _ bcast_S100000_S100000x1_0 _ (ix2 e 0) (ix1 e) (fun a => match a with
    | ⟨0, _⟩ => by show e.val = if (100000 : Nat) = 1 then 0 else e.val; rw [if_neg (by decide)])).trans ?_
  rfl

/-- Row 0 of the edge index at edge `e`. -/
theorem eiRow0_apply (ei : IVec S2x800000 32) (e : Fin 800000) : eiRow0 ei (ix1 e) = ei (ix2 0 e) := by
  unfold eiRow0
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![0, 0] ei slices_S2x800000_S1x800000_0_0 (ix2 (0 : Fin 1) e) (ix2 0 e) (fun a => match a with
    | ⟨0, _⟩ => by show (0 : Nat) = 0 + 0; rfl
    | ⟨1, _⟩ => by show e.val = 0 + e.val; omega)

/-- Row 1 of the edge index at edge `e`. -/
theorem eiRow1_apply (ei : IVec S2x800000 32) (e : Fin 800000) : eiRow1 ei (ix1 e) = ei (ix2 1 e) := by
  unfold eiRow1
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![1, 0] ei slices_S2x800000_S1x800000_1_0 (ix2 (0 : Fin 1) e) (ix2 1 e) (fun a => match a with
    | ⟨0, _⟩ => by show (1 : Nat) = 1 + 0; rfl
    | ⟨1, _⟩ => by show e.val = 0 + e.val; omega)

/-- The first half of a vector over the edges at `e`. -/
theorem lo_apply (v : IVec S800000 32) (e : Fin 400000) (h : e.val < 800000) : lo v (ix1 e) = v (ix1 ⟨e.val, h⟩) := by
  unfold lo
  exact extractStridedSlice_apply ![0] v slices_S800000_S400000_0 (ix1 e) (ix1 ⟨e.val, h⟩) (fun a => match a with
    | ⟨0, _⟩ => by show e.val = 0 + e.val; omega)

/-- The second half of a vector over the edges at `e`. -/
theorem hi_apply (v : IVec S800000 32) (e : Fin 400000) (h : 400000 + e.val < 800000) :
    hi v (ix1 e) = v (ix1 ⟨400000 + e.val, h⟩) := by
  unfold hi
  exact extractStridedSlice_apply ![400000] v slices_S800000_S400000_400000 (ix1 e) (ix1 ⟨400000 + e.val, h⟩) (fun a => match a with
    | ⟨0, _⟩ => by show 400000 + e.val = 400000 + e.val; rfl)

/-- The extended relation table at row `q`: the relation's row below 400, the loop relation's row at 400. -/
theorem rtab_apply (r : FVec Ideal S400x128 .f32) (lr : FVec Ideal S1x128 .f32) (q : Fin 401) (k : Fin 128) :
    rtab (F := Ideal) r lr (ix2 q k) = Cert.Spec.rfull r lr q k := by
  unfold rtab Cert.Spec.rfull
  by_cases h : q.val < 400
  · rw [dif_pos h]
    exact concatenate_pair_apply_left (0 : Fin 2) r lr concatenates_S400x128_S1x128_S401x128_d0 (ix2 q k) rfl (ix2 ⟨q.val, h⟩ k)
      (fun b => match b with
        | ⟨0, _⟩ => rfl
        | ⟨1, _⟩ => rfl)
  · rw [dif_neg h]
    exact concatenate_pair_apply_right (0 : Fin 2) r lr concatenates_S400x128_S1x128_S401x128_d0 (ix2 q k) rfl rfl (ix2 0 k)
      (fun b => match b with
        | ⟨0, _⟩ => fun hb => absurd rfl hb
        | ⟨1, _⟩ => fun _ => rfl)
      (by show (0 : Nat) + 400 = q.val; have := q.isLt; omega)

/-- The zero table is zero. -/
theorem zeroTab_apply (i : Fin 100000) (d : Fin 128) : zeroTab (F := Ideal) (ix2 i d) = 0 := by
  show Ideal.ofBits .f32 0x00000000#32 = 0
  exact Ideal.ofBits_zero_f32

/-- A per-edge factor spread along the features, read at `(e, d)`. -/
theorem alongFeat_apply (nm : FVec Ideal S400000 .f32) (e : Fin 400000) (d : Fin 128) :
    alongFeat (F := Ideal) nm (ix2 e d) = nm (ix1 e) := by
  unfold alongFeat
  refine (broadcastInDim_apply _ bcast_S400000x1_S400000x128_0_1 _ (ix2 e d) (ix2 e 0) (fun a => match a with
    | ⟨0, _⟩ => by show e.val = if (400000 : Nat) = 1 then 0 else e.val; rw [if_neg (by decide)]
    | ⟨1, _⟩ => by show 0 = if (1 : Nat) = 1 then 0 else d.val; rw [if_pos rfl])).trans ?_
  exact broadcastInDim_apply _ bcast_S400000_S400000x1_0 nm (ix2 e 0) (ix1 e) (fun a => match a with
    | ⟨0, _⟩ => by show e.val = if (400000 : Nat) = 1 then 0 else e.val; rw [if_neg (by decide)])

theorem dot4_lhs0 (i : S400000x128.Idx) (q : dot_S400000x128_S128x128_S400000x128_1_0_0_1_n_n.contr.Idx) : (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch by decide), dif_pos (show (0 : Fin S400000x128.rank) ∈ dot_S400000x128_S128x128_S400000x128_1_0_0_1_n_n.lhsNonContracting by decide)]
  rfl
theorem dot4_lhs1 (i : S400000x128.Idx) (q : dot_S400000x128_S128x128_S400000x128_1_0_0_1_n_n.contr.Idx) : (dot_S400000x128_S128x128_S400000x128_1_0_0_1_n_n.lhsIdx i q 1).val = (q ⟨0, by decide⟩).val :=
  dot_S400000x128_S128x128_S400000x128_1_0_0_1_n_n.lhsIdx_val_of_single rfl i q
theorem dot4_rhs0 (i : S400000x128.Idx) (q : dot_S400000x128_S128x128_S400000x128_1_0_0_1_n_n.contr.Idx) : (dot_S400000x128_S128x128_S400000x128_1_0_0_1_n_n.rhsIdx i q 0).val = (q ⟨0, by decide⟩).val :=
  dot_S400000x128_S128x128_S400000x128_1_0_0_1_n_n.rhsIdx_val_of_single rfl i q
theorem dot4_rhs1 (i : S400000x128.Idx) (q : dot_S400000x128_S128x128_S400000x128_1_0_0_1_n_n.contr.Idx) : (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch by decide), dif_pos (show (1 : Fin S128x128.rank) ∈ dot_S400000x128_S128x128_S400000x128_1_0_0_1_n_n.rhsNonContracting by decide)]
  rfl

/-- The product of `400000` rows with a weight matrix, read at `(e, d)`: the sum over the 128 features. -/
theorem dot4_apply (l : FVec Ideal S400000x128 .f32) (w : FVec Ideal S128x128 .f32) (e : Fin 400000) (d : Fin 128) :
    Host.dotGeneral (F := Ideal) dot_S400000x128_S128x128_S400000x128_1_0_0_1_n_n none l w (ix2 e d) = ∑ k : Fin 128, l (ix2 e k) * w (ix2 k d) := by
  simp only [Host.dotGeneral]
  rw [Ideal.dotGeneral_apply, ← Equiv.sum_comp (ValueIdx.contrEquiv1 dot_S400000x128_S128x128_S400000x128_1_0_0_1_n_n 128 rfl rfl).symm]
  refine Finset.sum_congr rfl fun k _ => ?_
  have hk := ValueIdx.contrEquiv1_symm_val dot_S400000x128_S128x128_S400000x128_1_0_0_1_n_n 128 rfl rfl k
  have el : dot_S400000x128_S128x128_S400000x128_1_0_0_1_n_n.lhsIdx (ix2 e d) ((ValueIdx.contrEquiv1 dot_S400000x128_S128x128_S400000x128_1_0_0_1_n_n 128 rfl rfl).symm k) = ix2 e k := funext fun a => Fin.ext (by
    match a with
    | ⟨0, _⟩ => exact dot4_lhs0 _ _
    | ⟨1, _⟩ => exact (dot4_lhs1 _ _).trans hk)
  have er : dot_S400000x128_S128x128_S400000x128_1_0_0_1_n_n.rhsIdx (ix2 e d) ((ValueIdx.contrEquiv1 dot_S400000x128_S128x128_S400000x128_1_0_0_1_n_n 128 rfl rfl).symm k) = ix2 k d := funext fun a => Fin.ext (by
    match a with
    | ⟨0, _⟩ => exact (dot4_rhs0 _ _).trans hk
    | ⟨1, _⟩ => exact dot4_rhs1 _ _)
  rw [el, er]

theorem dot1_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot1_lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem dot1_rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem dot1_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The product of `100000` rows with a weight matrix, read at `(e, d)`: the sum over the 128 features. -/
theorem dot1_apply (l : FVec Ideal S100000x128 .f32) (w : FVec Ideal S128x128 .f32) (e : Fin 100000) (d : Fin 128) :
    Host.dotGeneral (F := Ideal) dot_S100000x128_S128x128_S100000x128_1_0_0_1_n_n none l w (ix2 e d) = ∑ k : Fin 128, l (ix2 e k) * w (ix2 k d) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 e d) ((ValueIdx.contrEquiv1 dot_S100000x128_S128x128_S100000x128_1_0_0_1_n_n 128 rfl rfl).symm k) = ix2 e k := funext fun a => Fin.ext (by
    match a with
    | ⟨0, _⟩ => exact dot1_lhs0 _ _
    | ⟨1, _⟩ => exact (dot1_lhs1 _ _).trans hk)
  have er : dot_S100000x128_S128x128_S100000x128_1_0_0_1_n_n.rhsIdx (ix2 e d) ((ValueIdx.contrEquiv1 dot_S100000x128_S128x128_S100000x128_1_0_0_1_n_n 128 rfl rfl).symm k) = ix2 k d := funext fun a => Fin.ext (by
    match a with
    | ⟨0, _⟩ => exact (dot1_rhs0 _ _).trans hk
    | ⟨1, _⟩ => exact dot1_rhs1 _ _)
  rw [el, er]

/-- The un-normalised message of edge `e` at feature `d`: the source's row minus the relation's row, times the weights. -/
theorem msgOf_apply (x : FVec Ideal S100000x128 .f32) (r : FVec Ideal S400x128 .f32) (lr : FVec Ideal S1x128 .f32)
    (src typ : IVec S400000 32) (w : FVec Ideal S128x128 .f32) (e : Fin 400000) (d : Fin 128) :
    msgOf (F := Ideal) x r lr src typ w (ix2 e d)
      = ∑ k : Fin 128, (x (ix2 (Cert.LibRows.clampRow 100000 (by decide) (Cert.Spec.wrapW 100000#32 (src (ix1 e)))) k)
          - Cert.Spec.rfull r lr (Cert.LibRows.clampRow 401 (by decide) (Cert.Spec.wrapW 401#32 (typ (ix1 e)))) k) * w (ix2 k d) := by
  unfold msgOf
  rw [dot4_apply]
  refine Finset.sum_congr rfl fun k _ => ?_
  rw [subf_apply,
    Cert.LibRows.gather_rows_apply (N := 100000) (E := 400000) (D := 128) gather_S100000x128_S400000x1_S400000x128_1_0_n_n_0_1_1128 rfl rfl rfl rfl rfl rfl rfl (by decide),
    Cert.LibRows.gather_rows_apply (N := 401) (E := 400000) (D := 128) gather_S401x128_S400000x1_S400000x128_1_0_n_n_0_1_1128 rfl rfl rfl rfl rfl rfl rfl (by decide),
    wrapCol4_apply, wrapCol4_apply, rtab_apply]

/-- An accumulator of 400000 edges at `(i, d)`: the rows of the edges whose wrapped destination word is `i`. -/
theorem saOf_apply (dst : IVec S400000 32) (upd : FVec Ideal S400000x128 .f32) (i : Fin 100000) (d : Fin 128) :
    saOf (F := Ideal) dst upd (ix2 i d)
      = 0 + ∑ e : Fin 400000, if (Cert.Spec.wrapW 100000#32 (dst (ix1 e))).toInt = (i.val : Int) then upd (ix2 e d) else 0 := by
  unfold saOf
  rw [Cert.LibRows.scatterAdd_rows_apply (N := 100000) (E := 400000) (D := 128) scatter_S100000x128_S400000x1_S400000x128_1_0_0_1 rfl rfl rfl rfl, zeroTab_apply]
  simp only [wrapCol4_apply]

/-- The first half's accumulator is the specification's first sum. -/
theorem accIn_apply (x : FVec Ideal S100000x128 .f32) (r : FVec Ideal S400x128 .f32) (lr : FVec Ideal S1x128 .f32)
    (ei : IVec S2x800000 32) (et : IVec S800000 32) (w : FVec Ideal S128x128 .f32) (nm : FVec Ideal S400000 .f32)
    (i : Fin 100000) (d : Fin 128) :
    saOf (F := Ideal) (lo (eiRow0 ei)) (mulf (msgOf x r lr (lo (eiRow1 ei)) (lo et) w) (alongFeat nm)) (ix2 i d)
      = 0 + ∑ e : Fin 400000, if (Cert.Spec.dstW ei ⟨e.val, by omega⟩).toInt = (i.val : Int)
          then Cert.Spec.refMsg x r lr ei et w (nm (ix1 e)) ⟨e.val, by omega⟩ d else 0 := by
  rw [saOf_apply]
  refine congrArg (fun z : EReal => 0 + z) (Finset.sum_congr rfl fun e _ => ?_)
  have he : e.val < 800000 := by have := e.isLt; omega
  rw [mulf_apply, msgOf_apply, alongFeat_apply, lo_apply _ e he, lo_apply _ e he, lo_apply _ e he, eiRow0_apply, eiRow1_apply]
  rfl

/-- The second half's accumulator is the specification's second sum. -/
theorem accOut_apply (x : FVec Ideal S100000x128 .f32) (r : FVec Ideal S400x128 .f32) (lr : FVec Ideal S1x128 .f32)
    (ei : IVec S2x800000 32) (et : IVec S800000 32) (w : FVec Ideal S128x128 .f32) (nm : FVec Ideal S400000 .f32)
    (i : Fin 100000) (d : Fin 128) :
    saOf (F := Ideal) (hi (eiRow0 ei)) (mulf (msgOf x r lr (hi (eiRow1 ei)) (hi et) w) (alongFeat nm)) (ix2 i d)
      = 0 + ∑ e : Fin 400000, if (Cert.Spec.dstW ei ⟨400000 + e.val, by omega⟩).toInt = (i.val : Int)
          then Cert.Spec.refMsg x r lr ei et w (nm (ix1 e)) ⟨400000 + e.val, by omega⟩ d else 0 := by
  rw [saOf_apply]
  refine congrArg (fun z : EReal => 0 + z) (Finset.sum_congr rfl fun e _ => ?_)
  have he : 400000 + e.val < 800000 := by have := e.isLt; omega
  rw [mulf_apply, msgOf_apply, alongFeat_apply, hi_apply _ e he, hi_apply _ e he, hi_apply _ e he, eiRow0_apply, eiRow1_apply]
  rfl

/-- The self-loop accumulator is the specification's third sum. -/
theorem saLoop_apply (x : FVec Ideal S100000x128 .f32) (r : FVec Ideal S400x128 .f32) (lr : FVec Ideal S1x128 .f32)
    (wl : FVec Ideal S128x128 .f32) (i : Fin 100000) (d : Fin 128) :
    saLoop (F := Ideal) x r lr wl (ix2 i d)
      = 0 + ∑ n : Fin 100000, if (Cert.Spec.wrapW 100000#32 (BitVec.ofNat 32 n.val)).toInt = (i.val : Int)
          then Cert.Spec.refLoop x r lr wl n d else 0 := by
  unfold saLoop
  rw [Cert.LibRows.scatterAdd_rows_apply (N := 100000) (E := 100000) (D := 128) scatter_S100000x128_S100000x1_S100000x128_1_0_0_1 rfl rfl rfl rfl, zeroTab_apply]
  refine congrArg (fun z : EReal => 0 + z) (Finset.sum_congr rfl fun n _ => ?_)
  rw [wrapCol1_apply, dot1_apply]
  have hm : ∀ k : Fin 128,
      subf (Host.gather gather_S100000x128_S100000x1_S100000x128_1_0_n_n_0_1_1128 x (wrapCol1 100000#32 entW))
        (Host.gather gather_S401x128_S100000x1_S100000x128_1_0_n_n_0_1_1128 (rtab (F := Ideal) r lr) (wrapCol1 401#32 loopTyp)) (ix2 n k)
      = x (ix2 (Cert.LibRows.clampRow 100000 (by decide) (Cert.Spec.wrapW 100000#32 (BitVec.ofNat 32 n.val))) k)
        - Cert.Spec.rfull r lr (Cert.LibRows.clampRow 401 (by decide) (Cert.Spec.wrapW 401#32 400#32)) k := by
    intro k
    rw [subf_apply,
      Cert.LibRows.gather_rows_apply (N := 100000) (E := 100000) (D := 128) gather_S100000x128_S100000x1_S100000x128_1_0_n_n_0_1_1128 rfl rfl rfl rfl rfl rfl rfl (by decide),
      Cert.LibRows.gather_rows_apply (N := 401) (E := 100000) (D := 128) gather_S401x128_S100000x1_S100000x128_1_0_n_n_0_1_1128 rfl rfl rfl rfl rfl rfl rfl (by decide),
      wrapCol1_apply, wrapCol1_apply, rtab_apply]
    rfl
  simp only [hm]
  rfl

/-- `tanh` of an array at an index. -/
theorem tanh_apply (v : FVec Ideal S100000x128 .f32) (j : S100000x128.Idx) : Host.tanh (F := Ideal) v j = Ideal.tanh (v j) := rfl

/-- The bias spread over the entities, read at `(i, d)`. -/
theorem biasTab_apply (bias : FVec Ideal S128 .f32) (i : Fin 100000) (d : Fin 128) :
    broadcastInDim S100000x128 ![0, 1] bcast_S1x128_S100000x128_0_1 (broadcastInDim S1x128 ![1] bcast_S128_S1x128_1 bias) (ix2 i d)
      = bias (ix1 d) := by
  refine (broadcastInDim_apply _ bcast_S1x128_S100000x128_0_1 _ (ix2 i d) (ix2 0 d) (fun a => match a with
    | ⟨0, _⟩ => by show 0 = if (1 : Nat) = 1 then 0 else i.val; rw [if_pos rfl]
    | ⟨1, _⟩ => by show d.val = if (128 : Nat) = 1 then 0 else d.val; rw [if_neg (by decide)])).trans ?_
  exact broadcastInDim_apply _ bcast_S128_S1x128_1 bias (ix2 0 d) (ix1 d) (fun a => match a with
    | ⟨0, _⟩ => by show d.val = if (128 : Nat) = 1 then 0 else d.val; rw [if_neg (by decide)])

/-- THE REFERENCE'S FIRST RESULT at entity `i`, feature `d`, is the specification's `refOut`. -/
theorem refTerm_apply (x : FVec Ideal S100000x128 .f32) (r : FVec Ideal S400x128 .f32) (ei : IVec S2x800000 32)
    (et : IVec S800000 32) (win wout wl : FVec Ideal S128x128 .f32) (lr : FVec Ideal S1x128 .f32) (bias : FVec Ideal S128 .f32)
    (i : Fin 100000) (d : Fin 128) :
    refTerm (F := Ideal) x r ei et win wout wl lr bias (ix2 i d)
      = Cert.Spec.refOut x r ei et win wout wl lr bias (normIn (F := Ideal) ei) (normOut (F := Ideal) ei) i d := by
  unfold refTerm Cert.Spec.refOut
  rw [tanh_apply, addf_apply, mulf_apply, addf_apply, addf_apply, accIn_apply, accOut_apply, saLoop_apply, biasTab_apply]
  rfl

/-! ## The run's term is the composition, and its entries are the specification's -/

open Idealize.ShloMosaic.TcCoe Idealize.SL.Sem Idealize.ShloMosaic.StableHlo in
set_option maxRecDepth 8192 in
/-- The run's composed term for the first result is the composition of the named pieces. -/
theorem res_eq {F : FTy → Type} [FloatOps F] (m : (ℓ : Loc nD τ sig) → Buf (Elt F) ℓ) (c : Dev nD) :
    res_main_v162 m c
      = refTerm (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg8))
          (m ((c.tc : Thread nD τ).loc main_arg9)) := by
  unfold res_main_v162; rfl

open Idealize.ShloMosaic.TcCoe Idealize.SL.Sem Idealize.ShloMosaic.StableHlo in
/-- THE REFERENCE'S FIRST RESULT, as its run leaves it, read at entity `i` and feature `d`: the specification's `refOut` of
    the argument arrays, with the two halves' normalisations kept as the reference's own functions of the edge index. -/
theorem res_apply (m : (ℓ : Loc nD τ sig) → Buf (Elt Ideal) ℓ) (c : Dev nD) (i : Fin 100000) (d : Fin 128) :
    res_main_v162 (F := Ideal) m c (ix2 i d)
      = Cert.Spec.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg8))
          (m ((c.tc : Thread nD τ).loc main_arg9)) (normIn (F := Ideal) (m ((c.tc : Thread nD τ).loc main_arg2)))
          (normOut (F := Ideal) (m ((c.tc : Thread nD τ).loc main_arg2))) i d := by
  rw [res_eq]
  exact refTerm_apply _ _ _ _ _ _ _ _ _ i d

end Cert.ReferenceIdeal.RefRead

end
-- ==== Proof.RefSecond.lean ====
/-
  The reference's relation table with the loop relation appended as row 400, cut back to its first 400 rows, is the
  relation table: a slice at zero offsets of a two-piece concatenation along axis 0 reads the first piece.
-/
import proofs.«404528_j34351148433957_3_alg».proof.Proof.Gen.ReferenceIdeal
import Idealize.ShloMosaic.Lib.Pipeline.Value
import Idealize.ShloMosaic.Lib.ValueIdx

noncomputable section

namespace Cert.ReferenceIdeal.RefSecond

open Cert.ReferenceIdeal Cert.ReferenceIdeal.Gen Idealize.ShloMosaic Idealize.ShloMosaic.ValueIdx

variable {F : FTy → Type} [FloatOps F]

/-- Rows `0 … 399` of the 401-row table `r` over `lr` are `r`. -/
theorem slice_concat (r : FVec F S400x128 .f32) (lr : FVec F S1x128 .f32) :
    extractStridedSlice S400x128 ![0, 0] (concatenate S401x128 0 [⟨S400x128, r⟩, ⟨S1x128, lr⟩] concatenates_S400x128_S1x128_S401x128_d0) slices_S401x128_S400x128_0_0 = r := by
  funext j
  have h0 : (j 0).val < 400 := idx2_lt0 j
  have h1 : (j 1).val < 128 := idx2_lt1 j
  refine (extractStridedSlice_apply _ _ slices_S401x128_S400x128_0_0 j
    (ix2 (⟨(j 0).val, by omega⟩ : Fin 401) (⟨(j 1).val, h1⟩ : Fin 128)) fun a => ?_).trans ?_
  · match a with
    | ⟨0, _⟩ => show (j 0).val = 0 + (j 0).val; omega
    | ⟨1, _⟩ => show (j 1).val = 0 + (j 1).val; omega
  · refine concatenate_pair_apply_left 0 r lr concatenates_S400x128_S1x128_S401x128_d0 _ rfl j fun b => ?_
    match b with
    | ⟨0, _⟩ => rfl
    | ⟨1, _⟩ => rfl

end Cert.ReferenceIdeal.RefSecond

end
-- ==== Proof.NormEq.lean ====
/-
  The two programs' edge normalisations are the same arrays.

  Each program computes the normalisation of one half of the edges from the edge index alone, by the same chain of host
  operations: the half's destination and source words, wrapped (`t + 100000` where `t < 0`); the degree table (ones
  scatter-added into a zero table at the destination words); where the degree is positive, one over the square root of
  the degree taken at least 1, and zero elsewhere; that table gathered at the destination words times the same table
  gathered at the source words.  The two chains are printed in two namespaces, over shapes and dimension records that
  are the same literals, so the two arrays are equal by unfolding, for every float instance.
-/
import proofs.«404528_j34351148433957_3_alg».proof.Proof.KernelHost
import proofs.«404528_j34351148433957_3_alg».proof.Proof.RefRead

namespace Cert.NormEq

open Idealize.ShloMosaic

/-- The normalisations of the first 400000 edges: the kernel program's and the reference's are the same array. -/
theorem normIn_eq {F : FTy → Type} [FloatOps F] (ei : IVec Cert.KernelIdeal.S2x800000 32) :
    Cert.KernelIdeal.Host.normIn (F := F) ei = Cert.ReferenceIdeal.RefRead.normIn (F := F) ei := rfl

/-- The normalisations of the last 400000 edges: the kernel program's and the reference's are the same array. -/
theorem normOut_eq {F : FTy → Type} [FloatOps F] (ei : IVec Cert.KernelIdeal.S2x800000 32) :
    Cert.KernelIdeal.Host.normOut (F := F) ei = Cert.ReferenceIdeal.RefRead.normOut (F := F) ei := rfl

end Cert.NormEq
-- ==== Proof.PreRead.lean ====
/-
  The precondition, decoded at one edge: every edge type, read as a signed integer, lies in [0, 401).

  The printed predicate is a conjunction of one-bit words; its last conjunct is the "and" over all edges of
  (0 ≤ edge type) and (edge type < 401), both compared signed. The conjunction being 1 makes that conjunct 1,
  an "and" over all edges that is 1 met a 1 at every edge, and a signed comparison whose word is 1 is the
  inequality between the operands read as integers.
-/
import proofs.«404528_j34351148433957_3_alg».proof.Pre_finite_inputs
import proofs.«404528_j34351148433957_3_alg».proof.Proof.Gen.Pre_finite_inputs
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx Cert.Pre_finite_inputs Cert.Pre_finite_inputs.Gen

/-- The scalar shape has one index. -/
instance : Subsingleton S_.Idx := ⟨fun _ _ => funext fun d => d.elim0⟩

/-- Under the precondition every edge type is at least 0 and below 401, as a signed integer. -/
theorem et_range {F : FTy → Type} [FloatOps F] (a0 : FVec F S100000x128 .f32) (a1 : FVec F S400x128 .f32)
    (a2 : IVec S2x800000 32) (a3 : IVec S800000 32) (a4 a5 a6 a7 : FVec F S128x128 .f32) (a8 : FVec F S1x128 .f32)
    (a9 : FVec F S128 .f32)
    (h : Cert.Pre_finite_inputs.fn (F := F) a0 a1 a2 a3 a4 a5 a6 a7 a8 a9 = (fun _ => 1#1)) (e : Fin 800000) :
    0 ≤ (a3 (ix1 e)).toInt ∧ (a3 (ix1 e)).toInt < 401 := by
  have h0 := congrFun h ix0
  unfold fn fn_part1 fn_part2 at h0
  dsimp only at h0
  obtain ⟨-, hr⟩ := IntOp.andi_eq_one.1 h0
  have hall := Host.reduce_andi_all _ _ _ _ _ hr (ix1 e)
  obtain ⟨hge, hlt⟩ := IntOp.andi_eq_one.1 hall
  have h1 : (0#32).toInt ≤ (a3 (ix1 e)).toInt := IntOp.cmpi_sge.1 hge
  have h2 : (a3 (ix1 e)).toInt < (401#32).toInt := IntOp.cmpi_slt.1 hlt
  have z0 : (0#32).toInt = 0 := by decide
  have z1 : (401#32).toInt = 401 := by decide
  rw [z0] at h1
  rw [z1] at h2
  exact ⟨h1, h2⟩

end Cert.PreRead

end
-- ==== Proof.Bridge.lean ====
/-
  The kernel and the reference compute the same number at every entity `i` and feature `d`, when every edge type lies
  in `[0, 401)`.

  * One-hot lookup.  For a type word `t` with `0 ≤ t < 401` exactly one row number `q` of the 401-row relation table
    has `q = t`, so `∑ q, hot q t * g q = g t`; and a non-negative word is its own wrapping and, below 401, its own
    clamping: the one-hot product is the gathered relation row.
  * Two halves.  The sum over all 800000 edges splits into the first 400000 and the last 400000; in the first half the
    stacked weight is the first matrix and the normalisation the first half's, in the second the second's: the kernel's
    one scatter-added accumulator is the sum of the reference's two.
  * Self loops.  The reference scatter-adds entity `n`'s loop message at the index word `n`: of 100000 summands only
    `n = i` lands on `i`; the row it gathers at the word `i` is row `i`, and the relation row it gathers at the word 400 is
    the appended loop relation.
  Only commutative-monoid laws of addition on the extended reals are used (`0 + a = a`, regrouping), and `0 * a = 0`,
  `1 * a = a`: no finiteness.
-/
import proofs.«404528_j34351148433957_3_alg».proof.Proof.Spec
import Idealize.ShloMosaic.PureOps.Ideal.Laws

noncomputable section

namespace Cert.Bridge

open Idealize.ShloMosaic Idealize.ShloMosaic.ValueIdx Cert.LibRows Cert.Spec

/-- A non-negative index word is its own wrapping. -/
theorem wrapW_of_nonneg (n t : BitVec 32) (h : 0 ≤ t.toInt) : wrapW n t = t := by
  unfold wrapW Scalar.select IntOp.cmpi
  have : t.slt 0#32 = false := by
    simp only [BitVec.slt]
    simpa using h
  simp [this]

/-- A small natural number, as a 32-bit word, reads back as itself. -/
theorem toInt_ofNat_small (n : Nat) (h : n < 2 ^ 31) : (BitVec.ofNat 32 n).toInt = (n : Int) := by
  rw [BitVec.toInt_ofNat']
  have : ((n : Int)).bmod (2 ^ 32) = n := by
    rw [Int.bmod_def]; omega
  exact this

/-- The word 1.0 is the real 1. -/
theorem ofBits_one : Ideal.ofBits .f32 0x3F800000#32 = (1 : EReal) := by
  simp [Ideal.ofBits, Ideal.ieee, -EReal.coe_mul]; norm_num

/-- For a type word in `[0, 401)`, a row number equals the word exactly when it is the word's value. -/
theorem ofNat_eq_iff (t : BitVec 32) (h0 : 0 ≤ t.toInt) (h1 : t.toInt < 401) (q : Fin 401) :
    BitVec.ofNat 32 q.val = t ↔ q = clampRow 401 (by decide) (wrapW 401#32 t) := by
  rw [wrapW_of_nonneg _ _ h0]
  unfold clampRow
  constructor
  · intro h
    subst h
    apply Fin.ext
    have := toInt_ofNat_small q.val (by have := q.isLt; omega)
    simp only [this]
    have := q.isLt
    omega
  · intro h
    have hq : q.val = t.toInt.toNat := by
      have := congrArg Fin.val h
      simp only at this
      omega
    apply BitVec.eq_of_toInt_eq
    rw [toInt_ofNat_small _ (by have := q.isLt; omega), hq]
    omega

/-- The one-hot product with the relation table is the table's row at the (wrapped, clamped) type word. -/
theorem hot_sum (t : BitVec 32) (h0 : 0 ≤ t.toInt) (h1 : t.toInt < 401) (g : Fin 401 → EReal) :
    ∑ q : Fin 401, hot q t * g q = g (clampRow 401 (by decide) (wrapW 401#32 t)) := by
  have : ∀ q : Fin 401, hot q t * g q = if q = clampRow 401 (by decide) (wrapW 401#32 t) then g q else 0 := by
    intro q
    unfold hot
    by_cases hq : q = clampRow 401 (by decide) (wrapW 401#32 t)
    · rw [if_pos ((ofNat_eq_iff t h0 h1 q).mpr hq), if_pos hq, ofBits_one, one_mul]
    · rw [if_neg (fun h => hq ((ofNat_eq_iff t h0 h1 q).mp h)), if_neg hq, Ideal.ofBits_zero_f32, zero_mul]
  rw [Finset.sum_congr rfl (fun q _ => this q)]
  simp

section Main

variable (x : (⟨2, ![100000, 128]⟩ : Shape).Idx → EReal) (r : (⟨2, ![400, 128]⟩ : Shape).Idx → EReal)
  (ei : (⟨2, ![2, 800000]⟩ : Shape).Idx → BitVec 32) (et : (⟨1, ![800000]⟩ : Shape).Idx → BitVec 32)
  (win wout wl : (⟨2, ![128, 128]⟩ : Shape).Idx → EReal) (lr : (⟨2, ![1, 128]⟩ : Shape).Idx → EReal)
  (bias : (⟨1, ![128]⟩ : Shape).Idx → EReal) (nmIn nmOut : (⟨1, ![400000]⟩ : Shape).Idx → EReal)

/-- The kernel's message of edge `e` on the raw arrays: the gathered source row minus the one-hot product, times the
    edge's half's weight matrix, times the edge's half's normalisation. -/
theorem edgeMsg_read (e : Fin 800000) (d : Fin 128) :
    edgeMsg (kHj x ei) (kEt et) (kNm nmIn nmOut) (kRf r lr) (kWs win wout) (ix2 e d)
      = (∑ k : Fin 128, (x (ix2 (srcRow ei e) k) - ∑ q : Fin 401, hot q (et (ix1 e)) * rfull r lr q k)
          * (if (half e).val = 0 then win (ix2 k d) else wout (ix2 k d)))
        * (if h : e.val < 400000 then nmIn (ix1 ⟨e.val, h⟩)
            else nmOut (ix1 ⟨e.val - 400000, by have := e.isLt; omega⟩)) := rfl

variable (het : ∀ e : Fin 800000, 0 ≤ (et (ix1 e)).toInt ∧ (et (ix1 e)).toInt < 401)
include het

/-- A first-half edge's message is the reference's with the first weight matrix and the first half's normalisation. -/
theorem msg_first (e : Fin 400000) (d : Fin 128) :
    edgeMsg (kHj x ei) (kEt et) (kNm nmIn nmOut) (kRf r lr) (kWs win wout) (ix2 ⟨e.val, by have := e.isLt; omega⟩ d)
      = refMsg x r lr ei et win (nmIn (ix1 e)) ⟨e.val, by have := e.isLt; omega⟩ d := by
  rw [edgeMsg_read]
  unfold refMsg
  have hh : (half ⟨e.val, by have := e.isLt; omega⟩).val = 0 := by
    unfold half; have := e.isLt; simp only; omega
  rw [dif_pos (show (⟨e.val, by have := e.isLt; omega⟩ : Fin 800000).val < 400000 from e.isLt)]
  have hs : ∀ k : Fin 128,
      (x (ix2 (srcRow ei ⟨e.val, by have := e.isLt; omega⟩) k)
          - ∑ q : Fin 401, hot q (et (ix1 ⟨e.val, by have := e.isLt; omega⟩)) * rfull r lr q k)
        * (if (half ⟨e.val, by have := e.isLt; omega⟩).val = 0 then win (ix2 k d) else wout (ix2 k d))
      = (x (ix2 (srcRow ei ⟨e.val, by have := e.isLt; omega⟩) k)
          - rfull r lr (relRow et ⟨e.val, by have := e.isLt; omega⟩) k) * win (ix2 k d) := by
    intro k
    rw [if_pos hh, hot_sum _ (het _).1 (het _).2]
    rfl
  rw [Finset.sum_congr rfl (fun k _ => hs k)]

/-- A second-half edge's message is the reference's with the second weight matrix and the second half's normalisation. -/
theorem msg_second (e : Fin 400000) (d : Fin 128) :
    edgeMsg (kHj x ei) (kEt et) (kNm nmIn nmOut) (kRf r lr) (kWs win wout)
        (ix2 ⟨400000 + e.val, by have := e.isLt; omega⟩ d)
      = refMsg x r lr ei et wout (nmOut (ix1 e)) ⟨400000 + e.val, by have := e.isLt; omega⟩ d := by
  rw [edgeMsg_read]
  unfold refMsg
  have hh : ¬ (half ⟨400000 + e.val, by have := e.isLt; omega⟩).val = 0 := by
    unfold half; have := e.isLt; simp only; omega
  rw [dif_neg (show ¬ (⟨400000 + e.val, by have := e.isLt; omega⟩ : Fin 800000).val < 400000 from by simp)]
  have hidx : (⟨(⟨400000 + e.val, by have := e.isLt; omega⟩ : Fin 800000).val - 400000,
      by have := e.isLt; omega⟩ : Fin 400000) = e := Fin.ext (by simp)
  rw [hidx]
  have hs : ∀ k : Fin 128,
      (x (ix2 (srcRow ei ⟨400000 + e.val, by have := e.isLt; omega⟩) k)
          - ∑ q : Fin 401, hot q (et (ix1 ⟨400000 + e.val, by have := e.isLt; omega⟩)) * rfull r lr q k)
        * (if (half ⟨400000 + e.val, by have := e.isLt; omega⟩).val = 0 then win (ix2 k d) else wout (ix2 k d))
      = (x (ix2 (srcRow ei ⟨400000 + e.val, by have := e.isLt; omega⟩) k)
          - rfull r lr (relRow et ⟨400000 + e.val, by have := e.isLt; omega⟩) k) * wout (ix2 k d) := by
    intro k
    rw [if_neg hh, hot_sum _ (het _).1 (het _).2]
    rfl
  rw [Finset.sum_congr rfl (fun k _ => hs k)]

omit het

/-- Of the 100000 self-loop messages only entity `i`'s lands on `i`, and it is `(x i - lr) @ wl`. -/
theorem loop_sum (i : Fin 100000) (d : Fin 128) :
    (∑ n : Fin 100000, if (wrapW 100000#32 (BitVec.ofNat 32 n.val)).toInt = (i.val : Int)
        then refLoop x r lr wl n d else 0)
      = ∑ k : Fin 128, (x (ix2 i k) - lr (ix2 0 k)) * wl (ix2 k d) := by
  have hw : ∀ n : Fin 100000, wrapW 100000#32 (BitVec.ofNat 32 n.val) = BitVec.ofNat 32 n.val := fun n =>
    wrapW_of_nonneg _ _ (by rw [toInt_ofNat_small _ (by have := n.isLt; omega)]; omega)
  have hcond : ∀ n : Fin 100000, ((wrapW 100000#32 (BitVec.ofNat 32 n.val)).toInt = (i.val : Int)) ↔ n = i := by
    intro n
    rw [hw n, toInt_ofNat_small _ (by have := n.isLt; omega)]
    constructor
    · intro h; exact Fin.ext (by omega)
    · intro h; rw [h]
  simp only [hcond]
  rw [Finset.sum_ite_eq' Finset.univ i]
  simp only [Finset.mem_univ, if_true]
  unfold refLoop
  refine Finset.sum_congr rfl fun k _ => ?_
  have h1 : clampRow 100000 (by decide) (wrapW 100000#32 (BitVec.ofNat 32 i.val)) = i := by
    rw [hw i]; unfold clampRow; apply Fin.ext
    simp only [toInt_ofNat_small _ (show i.val < 2 ^ 31 by have := i.isLt; omega)]
    have := i.isLt; omega
  have h2 : clampRow 401 (by decide) (wrapW 401#32 400#32) = ⟨400, by decide⟩ := by decide
  rw [h1, h2]
  unfold rfull
  rw [dif_neg (by decide)]

/-- THE BRIDGE: with every edge type in `[0, 401)`, kernel and reference agree at every entity and feature. -/
theorem kerOut_eq_refOut (het : ∀ e : Fin 800000, 0 ≤ (et (ix1 e)).toInt ∧ (et (ix1 e)).toInt < 401)
    (i : Fin 100000) (d : Fin 128) :
    kerOut x r ei et win wout wl lr bias nmIn nmOut i d = refOut x r ei et win wout wl lr bias nmIn nmOut i d := by
  have hacc : kAcc ei (edgeMsg (kHj x ei) (kEt et) (kNm nmIn nmOut) (kRf r lr) (kWs win wout)) (ix2 i d)
      = 0 + ∑ e : Fin 800000, if (dstW ei e).toInt = (i.val : Int)
          then edgeMsg (kHj x ei) (kEt et) (kNm nmIn nmOut) (kRf r lr) (kWs win wout) (ix2 e d) else 0 := rfl
  have hb : kB bias (ix2 0 d) = bias (ix1 d) := rfl
  unfold kerOut combAt refOut
  rw [hacc, hb, sum_split 400000 400000 rfl, loop_sum x r wl lr i d]
  simp only [msg_first x r ei et win wout lr nmIn nmOut het, msg_second x r ei et win wout lr nmIn nmOut het, zero_add]

end Main

end Cert.Bridge

end
-- ==== Proof.lean ====
/-
  The certificate: a relational graph layer (gather the source entity's row, subtract the edge type's relation row,
  multiply by the direction's weight matrix, scale by the edge's symmetric degree normalisation, scatter-add at the
  destination entity; add the self-loop message; scale by a third, add the bias, tanh; and, separately, the relation
  table times the relation weight) as two tiled calls with host gathers and ONE scatter-add between them, against the
  plain array program with three scatter-adds.

  Stated under the added domain condition that every edge type lies in [0, 401), the range of the 401-row relation
  table it indexes: inside it the kernel's one-hot product with the table IS the gathered row.  Then, at every entity
  and feature, both programs hold tanh ((sum of the messages landing on the entity + the self-loop message) / 3-word
  + bias): the kernel adds all 800000 edges into one accumulator, the reference the two halves into two accumulators and
  the self loops into a third, and addition on the extended reals is a commutative monoid (Proof/Bridge.lean).

  The three frames: the two kernel programs' are the generated frame certificates; the reference's is its run with the
  results dropped.  The idealization rewrote nothing, so `preserves` is trivial.  The value claim pairs the kernel
  program's run, read back through its two calls (Proof/KernelValue.lean), with the reference's run read at an index
  (Proof/RefRead.lean), on argument arrays that agree.
-/
import proofs.«404528_j34351148433957_3_alg».proof.Defs
import proofs.«404528_j34351148433957_3_alg».proof.Proof.Gen.Kernel
import proofs.«404528_j34351148433957_3_alg».proof.Proof.Gen.Kernel.Skeleton
import proofs.«404528_j34351148433957_3_alg».proof.Proof.Gen.Kernel.Launch
import proofs.«404528_j34351148433957_3_alg».proof.Proof.Gen.Kernel.Points
import proofs.«404528_j34351148433957_3_alg».proof.Proof.Gen.Kernel.Frame
import proofs.«404528_j34351148433957_3_alg».proof.Proof.Gen.KernelIdeal
import proofs.«404528_j34351148433957_3_alg».proof.Proof.Gen.KernelIdeal.Skeleton
import proofs.«404528_j34351148433957_3_alg».proof.Proof.Gen.KernelIdeal.Launch
import proofs.«404528_j34351148433957_3_alg».proof.Proof.Gen.KernelIdeal.Points
import proofs.«404528_j34351148433957_3_alg».proof.Proof.Gen.KernelIdeal.Frame
import proofs.«404528_j34351148433957_3_alg».proof.Proof.Gen.ReferenceIdeal
import proofs.«404528_j34351148433957_3_alg».proof.Proof.Gen.Pre_finite_inputs
import proofs.«404528_j34351148433957_3_alg».proof.Proof.KernelRun
import proofs.«404528_j34351148433957_3_alg».proof.Proof.KernelValue
import proofs.«404528_j34351148433957_3_alg».proof.Proof.RefRun
import proofs.«404528_j34351148433957_3_alg».proof.Proof.RefRead
import proofs.«404528_j34351148433957_3_alg».proof.Proof.RefSecond
import proofs.«404528_j34351148433957_3_alg».proof.Proof.NormEq
import proofs.«404528_j34351148433957_3_alg».proof.Proof.PreRead
import proofs.«404528_j34351148433957_3_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with equal results on agreeing arguments whose edge types lie in [0, 401). -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v98),
    fun c => Cert.KernelIdeal.Gen.W9 (F := Ideal) m ρ c (Proc.devRef .tc Cert.KernelIdeal.main_v99),
    Cert.KernelIdeal.Run.run (F := Ideal) m ρ, ?_⟩
  refine (θ_run Cert.ReferenceIdeal.defs _ _).mono
    (fun _ h c => ⟨(h c).1.trans ?_, (h c).2.1.trans ?_, (h c).2.2⟩)
    (Cert.ReferenceIdeal.ValueP.run (F := Ideal) m' ρ')
  · -- the first result, index by index
    obtain ⟨h0, h1, h2, h3, h4, h5, h6, h7, h8, h9⟩ := hagree c
    have het : ∀ e : Fin 800000,
        0 ≤ ((m ((c.tc : Thread Cert.KernelIdeal.nD Cert.KernelIdeal.τ).loc Cert.KernelIdeal.main_arg3)) (ix1 e)).toInt
        ∧ ((m ((c.tc : Thread Cert.KernelIdeal.nD Cert.KernelIdeal.τ).loc Cert.KernelIdeal.main_arg3)) (ix1 e)).toInt < 401 :=
      fun e => Cert.PreRead.et_range _ _ _ _ _ _ _ _ _ _ (hpre c) e
    show _ = Cert.KernelIdeal.Gen.W9 (F := Ideal) m ρ c (Proc.devRef .tc Cert.KernelIdeal.main_v98)
    rw [Cert.KernelIdeal.Value.result0 m ρ c]
    funext j
    obtain ⟨i, d, rfl⟩ : ∃ (i : Fin 100000) (d : Fin 128), j = ix2 i d := ⟨j 0, j 1, eq_ix2 j⟩
    rw [Cert.ReferenceIdeal.RefRead.res_apply m' c i d, h0, h1, h2, h3, h4, h5, h6, h8, h9,
      ← Cert.NormEq.normIn_eq, ← Cert.NormEq.normOut_eq]
    exact (Cert.Bridge.kerOut_eq_refOut _ _ _ _ _ _ _ _ _ _ _ het i d).symm
  · -- the second result: the appended loop row is sliced off again
    obtain ⟨h0, h1, h2, h3, h4, h5, h6, h7, h8, h9⟩ := hagree c
    show _ = Cert.KernelIdeal.Gen.W9 (F := Ideal) m ρ c (Proc.devRef .tc Cert.KernelIdeal.main_v99)
    rw [Cert.KernelIdeal.Host2.W9_v99 (F := Ideal) m ρ c, h1, h7, h8,
      Cert.ReferenceIdeal.RefSecond.slice_concat (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg8))]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
